-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_fill" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 32 := constantI S_ 32 100000#32
  let main_v11 : IVec S512 32 := broadcastInDim S512 ![] bcast_S_S512 main_c_3
  let main_v12 : IVec S512 1 := cmpi .slt main_arg1 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 20
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x1, .i32⟩
  | .hbm, ⟨14, _⟩ => ⟨S512x1, .f32⟩
  | .hbm, ⟨15, _⟩ => ⟨S512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x1, .i32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![98], ![false]⟩

def k0_cond2 (i : grid0.Coords) : BitVec 1 :=
  let arg0 : BitVec 32 := BitVec.ofNat 32 (i 0).val
  let c97_i32 : BitVec 32 := 97#32
  let v67 : BitVec 1 := Scalar.cmpi .eq arg0 c97_i32
  let v68 : BitVec 32 := Scalar.extui v67
  let c0_i32_28 : BitVec 32 := 0#32
  let v69 : BitVec 1 := Scalar.cmpi .ne v68 c0_i32_28
  v69

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  iota_S512x1024_d1_w32 : S512x1024.Iotas .tc 32 [1]
  broadcasts_S512x1_S512x1024 : S512x1.Broadcasts S512x1024
  reduces_S512x1024_S512 : S512x1024.Reduces [1] S512
  shapeCasts_S512x1_S512 : S512x1.ShapeCasts S512
  reducesTo_S512_S_d0 : S512.ReducesTo [0] S_
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S512x1.size a
  hwx0_0 : ∀ i : grid0.Coords, EltTy.bits .i32 = 32 ∨ (Rect.block (s := S512x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x512.size a < S100000x512.size a
  hwx0_2 : ∀ i : grid0.Coords, EltTy.bits .f32 = 32 ∨ (Rect.unit (s := S100000x512) (fun a => cc0_transform_2 i a * S1024x512.size a) (fun a => (Pipeline.Clip.of (cc0_transform_2 i a) (S1024x512.size a) (S100000x512.size a)).extent (S1024x512.size a)) fun a => Pipeline.Clip.inb (Pipeline.Clip.ok_of (hstart0_2 i a))).WholeWords (EltTy.packing .f32)
  hwxs0_2 : ∀ i : grid0.Coords, EltTy.bits .f32 = 32 ∨ (Rect.unit (s := S1024x512) (fun _ => 0) (fun a => (Pipeline.Clip.of (cc0_transform_2 i a) (S1024x512.size a) (S100000x512.size a)).extent (S1024x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v8) S512x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S1024x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v9) S512x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S_, .f32⟩
  | .hbm, ⟨26, _⟩ => ⟨S512x100000, .f32⟩
  | .hbm, ⟨27, _⟩ => ⟨S512x100000, .f32⟩
  | .hbm, ⟨28, _⟩ => ⟨S_, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S512x100000, .f32⟩
  | .hbm, ⟨38, _⟩ => ⟨S512x100000, .f32⟩
  | .hbm, ⟨39, _⟩ => ⟨S512x100000, .f32⟩
  | .hbm, ⟨40, _⟩ => ⟨S_, .f32⟩
  | .hbm, ⟨41, _⟩ => ⟨S512x100000, .f32⟩
  | .hbm, ⟨42, _⟩ => ⟨S512x100000, .i1⟩
  | .hbm, ⟨43, _⟩ => ⟨S_, .f32⟩
  | .hbm, ⟨44, _⟩ => ⟨S512x100000, .f32⟩
  | .hbm, ⟨45, _⟩ => ⟨S512x100000, .f32⟩
  | .hbm, ⟨46, _⟩ => ⟨S512x100000, .f32⟩
  | .hbm, ⟨47, _⟩ => ⟨S512x1, .i32⟩
  | .hbm, ⟨48, _⟩ => ⟨S1x100000, .i32⟩
  | .hbm, ⟨49, _⟩ => ⟨S512x100000, .i32⟩
  | .hbm, ⟨50, _⟩ => ⟨S512x100000, .i32⟩
  | .hbm, ⟨51, _⟩ => ⟨S512x100000, .i1⟩
  | .hbm, ⟨52, _⟩ => ⟨S512x100000, .f32⟩
  | .hbm, ⟨53, _⟩ => ⟨S512x100000, .f32⟩
  | .hbm, ⟨54, _⟩ => ⟨S_, .f32⟩
  | .hbm, ⟨55, _⟩ => ⟨S512x100000, .f32⟩
  | .hbm, ⟨56, _⟩ => ⟨S512x100000, .f32⟩
  | .hbm, ⟨57, _⟩ => ⟨S512x100000, .f32⟩
  | .hbm, ⟨58, _⟩ => ⟨S512x100000, .f32⟩
  | .hbm, ⟨59, _⟩ => ⟨S_, .f32⟩
  | .hbm, ⟨60, _⟩ => ⟨S512x100000, .f32⟩
  | .hbm, ⟨61, _⟩ => ⟨S512x100000, .f32⟩
  | .hbm, ⟨62, _⟩ => ⟨S_, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512x1, .f32⟩
  | .hbm, ⟨68, _⟩ => ⟨S512x100000, .f32⟩
  | .hbm, ⟨69, _⟩ => ⟨S512x100000, .f32⟩
  | .hbm, ⟨70, _⟩ => ⟨S512x100000, .f32⟩
  | .hbm, ⟨71, _⟩ => ⟨S_, .f32⟩
  | .hbm, ⟨72, _⟩ => ⟨S512, .f32⟩
  | .hbm, ⟨73, _⟩ => ⟨S512x1, .f32⟩
  | .hbm, ⟨74, _⟩ => ⟨S512x1, .f32⟩
  | .hbm, ⟨75, _⟩ => ⟨S512x100000, .f32⟩
  | .hbm, ⟨76, _⟩ => ⟨S512x100000, .f32⟩
  | .hbm, ⟨77, _⟩ => ⟨S512x1, .i32⟩
  | .hbm, ⟨78, _⟩ => ⟨S_, .i32⟩
  | .hbm, ⟨79, _⟩ => ⟨S512x1, .i32⟩
  | .hbm, ⟨80, _⟩ => ⟨S512x1, .i1⟩
  | .hbm, ⟨81, _⟩ => ⟨S_, .i32⟩
  | .hbm, ⟨82, _⟩ => ⟨S512x1, .i32⟩
  | .hbm, ⟨83, _⟩ => ⟨S512x1, .i32⟩
  | .hbm, ⟨84, _⟩ => ⟨S512x1, .i32⟩
  | .hbm, ⟨85, _⟩ => ⟨S512x1x1, .i32⟩
  | .hbm, ⟨86, _⟩ => ⟨S1, .i32⟩
  | .hbm, ⟨87, _⟩ => ⟨S_, .i32⟩
  | .hbm, ⟨88, _⟩ => ⟨S512x1x1, .i32⟩
  | .hbm, ⟨89, _⟩ => ⟨S512x1x1, .i1⟩
  | .hbm, ⟨90, _⟩ => ⟨S1x1x1, .i32⟩
  | .hbm, ⟨91, _⟩ => ⟨S512x1x1, .i32⟩
  | .hbm, ⟨92, _⟩ => ⟨S512x1x1, .i1⟩
  | .hbm, ⟨93, _⟩ => ⟨S512x1x1, .i1⟩
  | .hbm, ⟨94, _⟩ => ⟨S_, .i1⟩
  | .hbm, ⟨95, _⟩ => ⟨S512x1, .i1⟩
  | .hbm, ⟨96, _⟩ => ⟨S512x1, .f32⟩
  | .hbm, ⟨97, _⟩ => ⟨S_, .f32⟩
  | .hbm, ⟨98, _⟩ => ⟨S512x1, .f32⟩
  | .hbm, ⟨99, _⟩ => ⟨S512x1, .f32⟩
  | .hbm, ⟨100, _⟩ => ⟨S512, .f32⟩
  | .hbm, ⟨101, _⟩ => ⟨S512, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_call3_cst : Ref sig .tc := ⟨.hbm, 62, rfl⟩
abbrev main_call3_v0 : Ref sig .tc := ⟨.hbm, 63, rfl⟩
abbrev main_call3_cst_0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_cst_1 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_v40 : Ref sig .tc := ⟨.hbm, 76, rfl⟩
abbrev main_v41 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_cst : Ref sig .tc := ⟨.hbm, 97, rfl⟩
abbrev main_call4_v14 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_11 : Ref sig .tc := ⟨.hbm, 102, rfl⟩
abbrev main_v45 : Ref sig .tc := ⟨.hbm, 103, rfl⟩
abbrev main_cst_12 : Ref sig .tc := ⟨.hbm, 104, rfl⟩
abbrev main_v46 : Ref sig .tc := ⟨.hbm, 105, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S100000x512_S512x100000_1_1_0_0_n_n_wf : DotDims.WF S512x512 S100000x512 S512x100000 [1] [1] [0] [0] [] []
  gather_S512x100000_S512x1x1_S512x1_n_1_0_0_1_2_11_wf : GatherDims.WF S512x100000 S512x1x1 S512x1 [] [1] [0] [1] [0] 2 ![1, 1]

variable [Facts₀]

def dot_S512x512_S100000x512_S512x100000_1_1_0_0_n_n : DotDims S512x512 S100000x512 S512x100000 where
  lhsContracting := [1]
  rhsContracting := [1]
  lhsNonContracting := [0]
  rhsNonContracting := [0]
  lhsBatch := []
  rhsBatch := []
  wf := dot_S512x512_S100000x512_S512x100000_1_1_0_0_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.KBBase.lean ====
/-
  What the runs of the kernel's body share: its two branch conditions decided over the grid, the memrefs it is called
  with, and the region's invariant spelled over the two scratch buffers.
-/
import proofs.«411548_j89867895701783_1_alg».proof.Proof.Gen.Kernel.Frame
import proofs.«411548_j89867895701783_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid

The body resets its two running sums at the first class tile and writes the losses out at the last. -/

/-- "This is the first class tile", as the body computes it from the grid coordinate. -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- "This is the last class tile". -/
abbrev condLast (i : grid0.Coords) : Prop := k0_cond2 i = 1#1
/-- It holds at point 97 only. -/
theorem hcondLast : ∀ t : Fin cfg0.N, condLast (grid0.coords t) ↔ t.val = 97 :=
  (by decide +kernel : ∀ t : Fin grid0.N, condLast (grid0.coords t) ↔ t.val = 97)

/-! ## The staging memrefs the body is called with, and the two scratch buffers -/

abbrev ms0 (t : Fin cfg0.N) : Memref sig .tc .vmem S512x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The running sum of exponentials and the running label logit: whole scoped buffers of the kernel's own. -/
abbrev scL : Memref sig .tc .vmem S512x1 .f32 := Memref.whole cc0_scratch0
abbrev scT : Memref sig .tc .vmem S512x1 .f32 := Memref.whole cc0_scratch1
/-- The views through which the contents of the output's buffer and of the two scratch buffers are stated. -/
abbrev VO : View sig .tc .vmem S512x1 .f32 := (Memref.whole cc0_stg3_0 : Memref sig .tc .vmem S512x1 .f32).view
abbrev VL : View sig .tc .vmem S512x1 .f32 := scL.view
abbrev VT : View sig .tc .vmem S512x1 .f32 := scT.view

/-- The region's class invariant with the two scratch buffers as memrefs owned at some contents. -/
theorem PhiA_eq (c : Dev nD) :
    (Pipeline.ΦA spec0 c : sProp 𝕄)
      = iprop(iprop((∃ d, owns (c : Thread nD τ) scL fullShare d) ∗ (∃ d, owns (c : Thread nD τ) scT fullShare d)) ∗ (∃ r, prngReg c r)) := by
  unfold Pipeline.ΦA; rw [scopedRest0_eq]; simp only [scL, scT, owns_whole]; try rfl

end Cert.Kernel.Hand

end
-- ==== Proof.KBRunA.lean ====
/-
  The body at the first class tile: both running sums are reset to zero, then added to and stored back; the output's buffer is not touched.
-/
import proofs.«411548_j89867895701783_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at given contents runs to its end; what it stores is found by the run: the pieces
    written into the output's buffer (`LO`), into the running sum of exponentials (`LL`) and into the running label
    logit (`LT`), last store first. -/
noncomputable def kernelRunA (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : condFirst i) (hcL : ¬condLast i)
    (x0 : Vec F S512x1 .i32) (x1 : Vec F S512x512 .f32) (x2 : Vec F S1024x512 .f32) :
    Σ' (LO : List (View.Piece (Elt F) S512x1 .f32)) (LL : List (View.Piece (Elt F) S512x1 .f32)), { LT : List (View.Piece (Elt F) S512x1 .f32) //
      ∀ (xi3 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LL)
                ∗ (∃ f, arg6.view.loc (c : Thread nD τ) ↦[arg6.view.set]{fullShare} arg6.view.writes (Elt F) f LT)) -∗ K ⟨⟩))
          ⊢ wp frame (wpE (defs₀ (F := F)) Variants.none c none) E (cc0__arcface_kernel i arg1 harg1 arg2 harg2 arg3 harg3 arg4 harg4 arg5 harg5 arg6 harg6) K } := by
  refine ⟨[], ?_, ?_, fun xi3 E K => ?run⟩
  case run =>
    simp only [cc0__arcface_kernel_eq_skeleton]; unfold cc0__arcface_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hcF | exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KBRunB.lean ====
/-
  The body at a class tile that is neither the first nor the last: both running sums are read, added to and stored back; the output's buffer is not touched.
-/
import proofs.«411548_j89867895701783_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at given contents runs to its end; what it stores is found by the run: the pieces
    written into the output's buffer (`LO`), into the running sum of exponentials (`LL`) and into the running label
    logit (`LT`), last store first. -/
noncomputable def kernelRunB (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : ¬condLast i)
    (x0 : Vec F S512x1 .i32) (x1 : Vec F S512x512 .f32) (x2 : Vec F S1024x512 .f32) (xs0 xs1 : Vec F S512x1 .f32) :
    Σ' (LO : List (View.Piece (Elt F) S512x1 .f32)) (LL : List (View.Piece (Elt F) S512x1 .f32)), { LT : List (View.Piece (Elt F) S512x1 .f32) //
      ∀ (xi3 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LL)
                ∗ (∃ f, arg6.view.loc (c : Thread nD τ) ↦[arg6.view.set]{fullShare} arg6.view.writes (Elt F) f LT)) -∗ K ⟨⟩))
          ⊢ wp frame (wpE (defs₀ (F := F)) Variants.none c none) E (cc0__arcface_kernel i arg1 harg1 arg2 harg2 arg3 harg3 arg4 harg4 arg5 harg5 arg6 harg6) K } := by
  refine ⟨[], ?_, ?_, fun xi3 E K => ?run⟩
  case run =>
    simp only [cc0__arcface_kernel_eq_skeleton]; unfold cc0__arcface_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hcF | exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KBRunC.lean ====
/-
  The body at the last class tile: both running sums are added to and stored back, and the losses scale + log(sum of exponentials) − label logit are stored into the output's buffer.
-/
import proofs.«411548_j89867895701783_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at given contents runs to its end; what it stores is found by the run: the pieces
    written into the output's buffer (`LO`), into the running sum of exponentials (`LL`) and into the running label
    logit (`LT`), last store first. -/
noncomputable def kernelRunC (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) :
    Σ' (LO : List (View.Piece (Elt F) S512x1 .f32)) (LL : List (View.Piece (Elt F) S512x1 .f32)), { LT : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LL)
                ∗ (∃ f, arg6.view.loc (c : Thread nD τ) ↦[arg6.view.set]{fullShare} arg6.view.writes (Elt F) f LT)) -∗ K ⟨⟩))
          ⊢ wp frame (wpE (defs₀ (F := F)) Variants.none c none) E (cc0__arcface_kernel i arg1 harg1 arg2 harg2 arg3 harg3 arg4 harg4 arg5 harg5 arg6 harg6) K } := by
  refine ⟨?_, ?_, ?_, fun E K => ?run⟩
  case run =>
    simp only [cc0__arcface_kernel_eq_skeleton]; unfold cc0__arcface_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hcF | exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.Kernel.Hand

end
-- ==== Proof.KBFrame.lean ====
/-
  The frame of the program: it runs to its end, faults nowhere and leaves its three argument arrays as they were.

  Nothing is said here of what the body computes: at every class tile, whatever the staging buffers and the two running
  sums hold, the body runs to its end and hands every buffer back at some contents. The weights' array is an input of
  the region and is never written; the embeddings and the labels are no array of the region, and the host lines after
  it write only their own results.
-/
import proofs.«411548_j89867895701783_1_alg».proof.Proof.KBRunA
import proofs.«411548_j89867895701783_1_alg».proof.Proof.KBRunB
import proofs.«411548_j89867895701783_1_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`, with nothing said of the buffers' contents: the arrays as the region
    finds them; whatever the body leaves in a buffer is admitted; the invariant is the region's own (both running sums
    at anything); nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 4000000 in
/-- The body at any class tile, on buffers at any contents: the tile is the first, the last or neither, and that
    case's run applies; the running sums come out of the invariant at some contents and go back at some contents. -/
theorem sound_any (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X))) := by
  unfold bodyAt0
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA_eq]
  by_cases h0 : t.val = 0
  · have hL : ¬condLast (grid0.coords t) := fun h => by have := (hcondLast t).mp h; omega
    iintro ⟨⟨⟨HL, HT⟩, Hg⟩, Ho, H0, H1, H2, H3⟩
    iapply ((kernelRunA c (grid0.coords t) _ _ _ _ _ _ _ _ _ _ _ _ ((hcondFirst t).mpr h0) hL (Y 0) (Y 1) (Y 2)).2.2.2 (Y 3) Set.univ _)
    isplitl [H0]; · iexact H0
    isplitl [H1]; · iexact H1
    isplitl [H2]; · iexact H2
    isplitl [H3]; · iexact H3
    isplitl [HL]; · iexact HL
    isplitl [HT]; · iexact HT
    iintro ⟨H0, H1, H2, H3, ⟨%eL, HL⟩, ⟨%eT, HT⟩⟩
    isplitl [HL HT Hg]
    · isplitr [Hg]
      · isplitl [HL]
        · iexists _; unfold owns; iexists _; isplitr
          swap; · iexact HL
          ipureintro; rfl
        · iexists _; unfold owns; iexists _; isplitr
          swap; · iexact HT
          ipureintro; rfl
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    iexists (Y 3); isplitr; · ipureintro; trivial
    iexact H3
  · have hF : ¬condFirst (grid0.coords t) := fun h => h0 ((hcondFirst t).mp h)
    by_cases h1 : t.val = 97
    · iintro ⟨⟨⟨⟨%dL, HL⟩, ⟨%dT, HT⟩⟩, Hg⟩, Ho, H0, H1, H2, H3⟩
      iapply ((kernelRunC c (grid0.coords t) _ _ _ _ _ _ _ _ _ _ _ _ hF ((hcondLast t).mpr h1) (Y 0) (Y 1) (Y 2) dL dT).2.2.2 Set.univ _)
      isplitl [H0]; · iexact H0
      isplitl [H1]; · iexact H1
      isplitl [H2]; · iexact H2
      isplitl [H3]; · iexists _; iexact H3
      isplitl [HL]; · iexact HL
      isplitl [HT]; · iexact HT
      iintro ⟨H0, H1, H2, ⟨%eO, H3⟩, ⟨%eL, HL⟩, ⟨%eT, HT⟩⟩
      isplitl [HL HT Hg]
      · isplitr [Hg]
        · isplitl [HL]
          · iexists _; unfold owns; iexists _; isplitr
            swap; · iexact HL
            ipureintro; rfl
          · iexists _; unfold owns; iexists _; isplitr
            swap; · iexact HT
            ipureintro; rfl
        · iexact Hg
      isplitl [Ho]; · iexact Ho
      isplitl [H0]
      · iexists (Y 0); isplitr; · ipureintro; trivial
        iexact H0
      isplitl [H1]
      · iexists (Y 1); isplitr; · ipureintro; trivial
        iexact H1
      isplitl [H2]
      · iexists (Y 2); isplitr; · ipureintro; trivial
        iexact H2
      iexists _; isplitr
      swap
      · unfold owns; iexists _; isplitr
        swap; · iexact H3
        ipureintro; rfl
      ipureintro; trivial
    · have hL : ¬condLast (grid0.coords t) := fun h => h1 ((hcondLast t).mp h)
      iintro ⟨⟨⟨⟨%dL, HL⟩, ⟨%dT, HT⟩⟩, Hg⟩, Ho, H0, H1, H2, H3⟩
      iapply ((kernelRunB c (grid0.coords t) _ _ _ _ _ _ _ _ _ _ _ _ hF hL (Y 0) (Y 1) (Y 2) dL dT).2.2.2 (Y 3) Set.univ _)
      isplitl [H0]; · iexact H0
      isplitl [H1]; · iexact H1
      isplitl [H2]; · iexact H2
      isplitl [H3]; · iexact H3
      isplitl [HL]; · iexact HL
      isplitl [HT]; · iexact HT
      iintro ⟨H0, H1, H2, H3, ⟨%eL, HL⟩, ⟨%eT, HT⟩⟩
      isplitl [HL HT Hg]
      · isplitr [Hg]
        · isplitl [HL]
          · iexists _; unfold owns; iexists _; isplitr
            swap; · iexact HL
            ipureintro; rfl
          · iexists _; unfold owns; iexists _; isplitr
            swap; · iexact HT
            ipureintro; rfl
        · iexact Hg
      isplitl [Ho]; · iexact Ho
      isplitl [H0]
      · iexists (Y 0); isplitr; · ipureintro; trivial
        iexact H0
      isplitl [H1]
      · iexists (Y 1); isplitr; · ipureintro; trivial
        iexact H1
      isplitl [H2]
      · iexists (Y 2); isplitr; · ipureintro; trivial
        iexact H2
      iexists (Y 3); isplitr; · ipureintro; trivial
      iexact H3

/-- The body obligation of the region, at every class tile. -/
theorem body_obligation_any (c : Dev nD) : (rdat (F := F) m c).BodyObligation (defs₀ (F := F)) Variants.none () Set.univ := fun t Y _ => by
  rw [bigSep_W0, bigSep_W0]
  exact sound_any m c t Y

/-- The buffers the host lines after the region write: their own results. -/
abbrev tailWritten : Finset (Ref sig .tc) := {main_v10, main_cst_1, main_v11, main_cst_2, main_v12}

theorem tail_writes : ∀ ops ∈ ([hostOps1] : List (List (HloOp τ sig (Elt F)))), ∀ op ∈ ops,
    ∀ b : Ref sig .tc, Proc.devRef .tc b ∈ op.writes → b ∈ tailWritten := by
  intro ops hops op hop b hb
  simp only [List.mem_cons, List.mem_nil_iff, or_false] at hops
  subst hops
  simp only [hostOps1, List.mem_cons, List.mem_nil_iff, or_false] at hop
  rcases hop with rfl | rfl | rfl | rfl | rfl <;>
    simp only [StableHlo.nullary_writes, StableHlo.unary_writes, StableHlo.binary_writes, StableHlo.reshape_writes, Finset.mem_singleton] at hb <;>
    (have := Proc.devRef_injective (τ := τ) _ hb; subst this; decide)

set_option backward.isDefEq.respectTransparency.types false in
/-- Every weakly fair execution of the program terminates without a fault; the region's arrays end at contents the
    schedule of write-backs admits, and every other unscoped buffer the later host lines do not write as the region
    found it. -/
theorem run_any : θ_run defs (onTc (τ := τ) (main (F := F))) (s₀ m ρ)
    (Pipeline.RDat.FramePostR cfg0 (rdat m) tailWritten (fun c b => V0 m c (Proc.devRef .tc b))) :=
  Pipeline.RDat.θ_run_frame_around_T cfgs (0 : Fin 1) launch0 defs₀ Variants.none (rdat m) tailWritten m ρ main
    (hbody := body_obligation_any m) (hshare := fun c => (rdat m c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

/-- THE FRAME, at any float family: the program runs and its three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     (Pipeline.RDat.FramePostR.arr_in h c 2 rfl).trans (V_main_arg2 m c)⟩) (run_any m ρ)

end Cert.Kernel.Hand

end
-- ==== Proof.KIBase.lean ====
/-
  What the runs of the kernel's body share: its two branch conditions decided over the grid, the memrefs it is called
  with, and the region's invariant spelled over the two scratch buffers.
-/
import proofs.«411548_j89867895701783_1_alg».proof.Proof.Gen.KernelIdeal.Frame
import proofs.«411548_j89867895701783_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions of the body, over the grid

The body resets its two running sums at the first class tile and writes the losses out at the last. -/

/-- "This is the first class tile", as the body computes it from the grid coordinate. -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- "This is the last class tile". -/
abbrev condLast (i : grid0.Coords) : Prop := k0_cond2 i = 1#1
/-- It holds at point 97 only. -/
theorem hcondLast : ∀ t : Fin cfg0.N, condLast (grid0.coords t) ↔ t.val = 97 :=
  (by decide +kernel : ∀ t : Fin grid0.N, condLast (grid0.coords t) ↔ t.val = 97)

/-! ## The staging memrefs the body is called with, and the two scratch buffers -/

abbrev ms0 (t : Fin cfg0.N) : Memref sig .tc .vmem S512x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The running sum of exponentials and the running label logit: whole scoped buffers of the kernel's own. -/
abbrev scL : Memref sig .tc .vmem S512x1 .f32 := Memref.whole cc0_scratch0
abbrev scT : Memref sig .tc .vmem S512x1 .f32 := Memref.whole cc0_scratch1
/-- The views through which the contents of the output's buffer and of the two scratch buffers are stated. -/
abbrev VO : View sig .tc .vmem S512x1 .f32 := (Memref.whole cc0_stg3_0 : Memref sig .tc .vmem S512x1 .f32).view
abbrev VL : View sig .tc .vmem S512x1 .f32 := scL.view
abbrev VT : View sig .tc .vmem S512x1 .f32 := scT.view

/-- The region's class invariant with the two scratch buffers as memrefs owned at some contents. -/
theorem PhiA_eq (c : Dev nD) :
    (Pipeline.ΦA spec0 c : sProp 𝕄)
      = iprop(iprop((∃ d, owns (c : Thread nD τ) scL fullShare d) ∗ (∃ d, owns (c : Thread nD τ) scT fullShare d)) ∗ (∃ r, prngReg c r)) := by
  unfold Pipeline.ΦA; rw [scopedRest0_eq]; simp only [scL, scT, owns_whole]; try rfl

end Cert.KernelIdeal.Hand

end
-- ==== Proof.KIRunA.lean ====
/-
  The body at the first class tile: both running sums are reset to zero, then added to and stored back; the output's buffer is not touched.
-/
import proofs.«411548_j89867895701783_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body on whole memrefs at given contents runs to its end; what it stores is found by the run: the pieces
    written into the output's buffer (`LO`), into the running sum of exponentials (`LL`) and into the running label
    logit (`LT`), last store first. -/
noncomputable def kernelRunA (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : condFirst i) (hcL : ¬condLast i)
    (x0 : Vec F S512x1 .i32) (x1 : Vec F S512x512 .f32) (x2 : Vec F S1024x512 .f32) :
    Σ' (LO : List (View.Piece (Elt F) S512x1 .f32)) (LL : List (View.Piece (Elt F) S512x1 .f32)), { LT : List (View.Piece (Elt F) S512x1 .f32) //
      ∀ (xi3 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LL)
                ∗ (∃ f, arg6.view.loc (c : Thread nD τ) ↦[arg6.view.set]{fullShare} arg6.view.writes (Elt F) f LT)) -∗ K ⟨⟩))
          ⊢ wp frame (wpE (defs₀ (F := F)) Variants.none c none) E (cc0__arcface_kernel i arg1 harg1 arg2 harg2 arg3 harg3 arg4 harg4 arg5 harg5 arg6 harg6) K } := by
  refine ⟨[], ?_, ?_, fun xi3 E K => ?run⟩
  case run =>
    simp only [cc0__arcface_kernel_eq_skeleton]; unfold cc0__arcface_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hcF | exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KIRunB.lean ====
/-
  The body at a class tile that is neither the first nor the last: both running sums are read, added to and stored back; the output's buffer is not touched.
-/
import proofs.«411548_j89867895701783_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body on whole memrefs at given contents runs to its end; what it stores is found by the run: the pieces
    written into the output's buffer (`LO`), into the running sum of exponentials (`LL`) and into the running label
    logit (`LT`), last store first. -/
noncomputable def kernelRunB (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : ¬condLast i)
    (x0 : Vec F S512x1 .i32) (x1 : Vec F S512x512 .f32) (x2 : Vec F S1024x512 .f32) (xs0 xs1 : Vec F S512x1 .f32) :
    Σ' (LO : List (View.Piece (Elt F) S512x1 .f32)) (LL : List (View.Piece (Elt F) S512x1 .f32)), { LT : List (View.Piece (Elt F) S512x1 .f32) //
      ∀ (xi3 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LL)
                ∗ (∃ f, arg6.view.loc (c : Thread nD τ) ↦[arg6.view.set]{fullShare} arg6.view.writes (Elt F) f LT)) -∗ K ⟨⟩))
          ⊢ wp frame (wpE (defs₀ (F := F)) Variants.none c none) E (cc0__arcface_kernel i arg1 harg1 arg2 harg2 arg3 harg3 arg4 harg4 arg5 harg5 arg6 harg6) K } := by
  refine ⟨[], ?_, ?_, fun xi3 E K => ?run⟩
  case run =>
    simp only [cc0__arcface_kernel_eq_skeleton]; unfold cc0__arcface_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hcF | exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KIRunC.lean ====
/-
  The body at the last class tile: both running sums are added to and stored back, and the losses scale + log(sum of exponentials) − label logit are stored into the output's buffer.
-/
import proofs.«411548_j89867895701783_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body on whole memrefs at given contents runs to its end; what it stores is found by the run: the pieces
    written into the output's buffer (`LO`), into the running sum of exponentials (`LL`) and into the running label
    logit (`LT`), last store first. -/
noncomputable def kernelRunC (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) :
    Σ' (LO : List (View.Piece (Elt F) S512x1 .f32)) (LL : List (View.Piece (Elt F) S512x1 .f32)), { LT : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LL)
                ∗ (∃ f, arg6.view.loc (c : Thread nD τ) ↦[arg6.view.set]{fullShare} arg6.view.writes (Elt F) f LT)) -∗ K ⟨⟩))
          ⊢ wp frame (wpE (defs₀ (F := F)) Variants.none c none) E (cc0__arcface_kernel i arg1 harg1 arg2 harg2 arg3 harg3 arg4 harg4 arg5 harg5 arg6 harg6) K } := by
  refine ⟨?_, ?_, ?_, fun E K => ?run⟩
  case run =>
    simp only [cc0__arcface_kernel_eq_skeleton]; unfold cc0__arcface_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hcF | exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.KIFrame.lean ====
/-
  The frame of the program: it runs to its end, faults nowhere and leaves its three argument arrays as they were.

  Nothing is said here of what the body computes: at every class tile, whatever the staging buffers and the two running
  sums hold, the body runs to its end and hands every buffer back at some contents. The weights' array is an input of
  the region and is never written; the embeddings and the labels are no array of the region, and the host lines after
  it write only their own results.
-/
import proofs.«411548_j89867895701783_1_alg».proof.Proof.KIRunA
import proofs.«411548_j89867895701783_1_alg».proof.Proof.KIRunB
import proofs.«411548_j89867895701783_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the region on core `c`, with nothing said of the buffers' contents: the arrays as the region
    finds them; whatever the body leaves in a buffer is admitted; the invariant is the region's own (both running sums
    at anything); nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 4000000 in
/-- The body at any class tile, on buffers at any contents: the tile is the first, the last or neither, and that
    case's run applies; the running sums come out of the invariant at some contents and go back at some contents. -/
theorem sound_any (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X))) := by
  unfold bodyAt0
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA_eq]
  by_cases h0 : t.val = 0
  · have hL : ¬condLast (grid0.coords t) := fun h => by have := (hcondLast t).mp h; omega
    iintro ⟨⟨⟨HL, HT⟩, Hg⟩, Ho, H0, H1, H2, H3⟩
    iapply ((kernelRunA c (grid0.coords t) _ _ _ _ _ _ _ _ _ _ _ _ ((hcondFirst t).mpr h0) hL (Y 0) (Y 1) (Y 2)).2.2.2 (Y 3) Set.univ _)
    isplitl [H0]; · iexact H0
    isplitl [H1]; · iexact H1
    isplitl [H2]; · iexact H2
    isplitl [H3]; · iexact H3
    isplitl [HL]; · iexact HL
    isplitl [HT]; · iexact HT
    iintro ⟨H0, H1, H2, H3, ⟨%eL, HL⟩, ⟨%eT, HT⟩⟩
    isplitl [HL HT Hg]
    · isplitr [Hg]
      · isplitl [HL]
        · iexists _; unfold owns; iexists _; isplitr
          swap; · iexact HL
          ipureintro; rfl
        · iexists _; unfold owns; iexists _; isplitr
          swap; · iexact HT
          ipureintro; rfl
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    iexists (Y 3); isplitr; · ipureintro; trivial
    iexact H3
  · have hF : ¬condFirst (grid0.coords t) := fun h => h0 ((hcondFirst t).mp h)
    by_cases h1 : t.val = 97
    · iintro ⟨⟨⟨⟨%dL, HL⟩, ⟨%dT, HT⟩⟩, Hg⟩, Ho, H0, H1, H2, H3⟩
      iapply ((kernelRunC c (grid0.coords t) _ _ _ _ _ _ _ _ _ _ _ _ hF ((hcondLast t).mpr h1) (Y 0) (Y 1) (Y 2) dL dT).2.2.2 Set.univ _)
      isplitl [H0]; · iexact H0
      isplitl [H1]; · iexact H1
      isplitl [H2]; · iexact H2
      isplitl [H3]; · iexists _; iexact H3
      isplitl [HL]; · iexact HL
      isplitl [HT]; · iexact HT
      iintro ⟨H0, H1, H2, ⟨%eO, H3⟩, ⟨%eL, HL⟩, ⟨%eT, HT⟩⟩
      isplitl [HL HT Hg]
      · isplitr [Hg]
        · isplitl [HL]
          · iexists _; unfold owns; iexists _; isplitr
            swap; · iexact HL
            ipureintro; rfl
          · iexists _; unfold owns; iexists _; isplitr
            swap; · iexact HT
            ipureintro; rfl
        · iexact Hg
      isplitl [Ho]; · iexact Ho
      isplitl [H0]
      · iexists (Y 0); isplitr; · ipureintro; trivial
        iexact H0
      isplitl [H1]
      · iexists (Y 1); isplitr; · ipureintro; trivial
        iexact H1
      isplitl [H2]
      · iexists (Y 2); isplitr; · ipureintro; trivial
        iexact H2
      iexists _; isplitr
      swap
      · unfold owns; iexists _; isplitr
        swap; · iexact H3
        ipureintro; rfl
      ipureintro; trivial
    · have hL : ¬condLast (grid0.coords t) := fun h => h1 ((hcondLast t).mp h)
      iintro ⟨⟨⟨⟨%dL, HL⟩, ⟨%dT, HT⟩⟩, Hg⟩, Ho, H0, H1, H2, H3⟩
      iapply ((kernelRunB c (grid0.coords t) _ _ _ _ _ _ _ _ _ _ _ _ hF hL (Y 0) (Y 1) (Y 2) dL dT).2.2.2 (Y 3) Set.univ _)
      isplitl [H0]; · iexact H0
      isplitl [H1]; · iexact H1
      isplitl [H2]; · iexact H2
      isplitl [H3]; · iexact H3
      isplitl [HL]; · iexact HL
      isplitl [HT]; · iexact HT
      iintro ⟨H0, H1, H2, H3, ⟨%eL, HL⟩, ⟨%eT, HT⟩⟩
      isplitl [HL HT Hg]
      · isplitr [Hg]
        · isplitl [HL]
          · iexists _; unfold owns; iexists _; isplitr
            swap; · iexact HL
            ipureintro; rfl
          · iexists _; unfold owns; iexists _; isplitr
            swap; · iexact HT
            ipureintro; rfl
        · iexact Hg
      isplitl [Ho]; · iexact Ho
      isplitl [H0]
      · iexists (Y 0); isplitr; · ipureintro; trivial
        iexact H0
      isplitl [H1]
      · iexists (Y 1); isplitr; · ipureintro; trivial
        iexact H1
      isplitl [H2]
      · iexists (Y 2); isplitr; · ipureintro; trivial
        iexact H2
      iexists (Y 3); isplitr; · ipureintro; trivial
      iexact H3

/-- The body obligation of the region, at every class tile. -/
theorem body_obligation_any (c : Dev nD) : (rdat (F := F) m c).BodyObligation (defs₀ (F := F)) Variants.none () Set.univ := fun t Y _ => by
  rw [bigSep_W0, bigSep_W0]
  exact sound_any m c t Y

/-- The buffers the host lines after the region write: their own results. -/
abbrev tailWritten : Finset (Ref sig .tc) := {main_v10, main_cst_1, main_v11, main_cst_2, main_v12}

theorem tail_writes : ∀ ops ∈ ([hostOps1] : List (List (HloOp τ sig (Elt F)))), ∀ op ∈ ops,
    ∀ b : Ref sig .tc, Proc.devRef .tc b ∈ op.writes → b ∈ tailWritten := by
  intro ops hops op hop b hb
  simp only [List.mem_cons, List.mem_nil_iff, or_false] at hops
  subst hops
  simp only [hostOps1, List.mem_cons, List.mem_nil_iff, or_false] at hop
  rcases hop with rfl | rfl | rfl | rfl | rfl <;>
    simp only [StableHlo.nullary_writes, StableHlo.unary_writes, StableHlo.binary_writes, StableHlo.reshape_writes, Finset.mem_singleton] at hb <;>
    (have := Proc.devRef_injective (τ := τ) _ hb; subst this; decide)

set_option backward.isDefEq.respectTransparency.types false in
/-- Every weakly fair execution of the program terminates without a fault; the region's arrays end at contents the
    schedule of write-backs admits, and every other unscoped buffer the later host lines do not write as the region
    found it. -/
theorem run_any : θ_run defs (onTc (τ := τ) (main (F := F))) (s₀ m ρ)
    (Pipeline.RDat.FramePostR cfg0 (rdat m) tailWritten (fun c b => V0 m c (Proc.devRef .tc b))) :=
  Pipeline.RDat.θ_run_frame_around_T cfgs (0 : Fin 1) launch0 defs₀ Variants.none (rdat m) tailWritten m ρ main
    (hbody := body_obligation_any m) (hshare := fun c => (rdat m c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

/-- THE FRAME, at any float family: the program runs and its three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     (Pipeline.RDat.FramePostR.arr_in h c 2 rfl).trans (V_main_arg2 m c)⟩) (run_any m ρ)

end Cert.KernelIdeal.Hand

end
-- ==== Proof.Spec.lean ====
/-
  The mathematics both programs compute, as functions on the extended reals over plain index types.

  An ArcFace loss: rows of the embeddings and of the class weights are divided by max(‖row‖, eps); the cosine of
  sample b and class c is the inner product of the two scaled rows; the label's cosine is replaced by the margin
  function of it; the logits are the cosines times the scale; the loss of a sample is the log of the sum of the
  exponentials of its logits minus the label's logit; the result is the mean over the samples.

  The kernel's form shifts the exponentials by the scale (a constant); the reference's form shifts them by the row's
  maximum and writes the label's selection as a one-hot blend. For real cosines the two are one number.
-/
import Idealize.ShloMosaic.PureOps.Ideal

noncomputable section

namespace Cert.ArcSpec

open Idealize.ShloMosaic

/-- The literals both programs carry, as the extended reals their words denote. -/
abbrev ZERO : EReal := Ideal.ofBits .f32 0x00000000#32
abbrev ONE : EReal := Ideal.ofBits .f32 0x3F800000#32
abbrev EPS : EReal := Ideal.ofBits .f32 0x2B8CBCCC#32
abbrev COSM : EReal := Ideal.ofBits .f32 0x3F60A940#32
abbrev SINM : EReal := Ideal.ofBits .f32 0x3EF57744#32
abbrev THR : EReal := Ideal.ofBits .f32 0xBF60A940#32
abbrev MM : EReal := Ideal.ofBits .f32 0x3E757744#32
abbrev SCALE : EReal := Ideal.ofBits .f32 0x42800000#32
abbrev NB : EReal := Ideal.ofBits .f32 0x44000000#32

/-- Row `r` of `x` divided by max(its Euclidean norm, eps). -/
def unitRow {n : Nat} (x : Fin n → Fin 512 → EReal) (r : Fin n) (d : Fin 512) : EReal :=
  Ideal.div (x r d) (max (Ideal.sqrt (∑ k : Fin 512, x r k * x r k)) EPS)

/-- The cosine of sample `b` and class `c`: the inner product of the scaled rows. -/
def cosv (e : Fin 512 → Fin 512 → EReal) (w : Fin 100000 → Fin 512 → EReal) (b : Fin 512) (c : Fin 100000) : EReal :=
  ∑ d : Fin 512, unitRow e b d * unitRow w c d

/-- The margin function: cos(θ + m) where the cosine is above the threshold, the cosine less a constant elsewhere. -/
def margin (x : EReal) : EReal :=
  Scalar.select (Ideal.cmp .ogt x THR) (x * COSM - Ideal.sqrt (max ZERO (ONE - x * x)) * SINM) (x - MM)

/-- Whether class `c` is sample `b`'s label. -/
def isLabel (lab : Fin 512 → BitVec 32) (b : Fin 512) (c : Fin 100000) : Prop := lab b = BitVec.ofNat 32 c.val

instance (lab : Fin 512 → BitVec 32) (b : Fin 512) (c : Fin 100000) : Decidable (isLabel lab b c) := by
  unfold isLabel; infer_instance

/-- The kernel's logits: the scale times the margin of the label's cosine, the scale times the cosine elsewhere. -/
def logitK (lab : Fin 512 → BitVec 32) (cs : Fin 512 → Fin 100000 → EReal) (b : Fin 512) (c : Fin 100000) : EReal :=
  SCALE * (if isLabel lab b c then margin (cs b c) else cs b c)

/-- The kernel's loss of sample `b`: scale + log Σ exp(logit − scale), less the sum over the classes of the
    logit where the class is the label and zero elsewhere. -/
def lossK (lab : Fin 512 → BitVec 32) (cs : Fin 512 → Fin 100000 → EReal) (b : Fin 512) : EReal :=
  (SCALE + Ideal.log (∑ c : Fin 100000, Ideal.exp (logitK lab cs b c - SCALE)))
    - ∑ c : Fin 100000, (if isLabel lab b c then logitK lab cs b c else ZERO)

/-- The kernel's result: the mean of the losses. -/
def outK (lab : Fin 512 → BitVec 32) (cs : Fin 512 → Fin 100000 → EReal) : EReal :=
  Ideal.div (∑ b : Fin 512, lossK lab cs b) NB

/-- The reference's one-hot entry. -/
def hot (lab : Fin 512 → BitVec 32) (b : Fin 512) (c : Fin 100000) : EReal := if isLabel lab b c then ONE else ZERO

/-- The reference's logits: the scale times the one-hot blend of the margin and the cosine. -/
def logitR (lab : Fin 512 → BitVec 32) (cs : Fin 512 → Fin 100000 → EReal) (b : Fin 512) (c : Fin 100000) : EReal :=
  SCALE * (hot lab b c * margin (cs b c) + (ONE - hot lab b c) * cs b c)

/-- The reference's loss of sample `b` whose label is class `l`, with the exponentials shifted by `M`:
    −((logit_l − M) − log Σ exp(logit − M)). -/
def lossR (lab : Fin 512 → BitVec 32) (cs : Fin 512 → Fin 100000 → EReal) (M : Fin 512 → EReal) (b : Fin 512) (l : Fin 100000) : EReal :=
  -((logitR lab cs b l - M b) - Ideal.log (∑ c : Fin 100000, Ideal.exp (logitR lab cs b c - M b)))

/-- The reference's result: the mean of the losses, each at its sample's label `lbl b`. -/
def outR (lab : Fin 512 → BitVec 32) (cs : Fin 512 → Fin 100000 → EReal) (M : Fin 512 → EReal) (lbl : Fin 512 → Fin 100000) : EReal :=
  Ideal.div (∑ b : Fin 512, lossR lab cs M b (lbl b)) NB

end Cert.ArcSpec

end
-- ==== Proof.SpecArrays.lean ====
/-
  The argument arrays read as plain functions of their coordinates, and the kernel's result over them.
-/
import proofs.«411548_j89867895701783_1_alg».proof.Proof.Spec
import Idealize.ShloMosaic.Lib.ValueIdx

noncomputable section

namespace Cert.ArcSpec

open Idealize.ShloMosaic

/-- A rank-2 array as a function of its row and column. -/
def rows2 {α : Type} {n0 n1 : Nat} (x : (⟨2, ![n0, n1]⟩ : Shape).Idx → α) (a : Fin n0) (b : Fin n1) : α := x (ValueIdx.ix2 a b)
/-- A rank-1 array as a function of its position. -/
def words1 {α : Type} {n : Nat} (x : (⟨1, ![n]⟩ : Shape).Idx → α) (a : Fin n) : α := x (ValueIdx.ix1 a)

/-- The mean loss as the kernel forms it, of the three argument arrays. -/
def lossOfK (x0 : (⟨2, ![512, 512]⟩ : Shape).Idx → EReal) (x1 : (⟨1, ![512]⟩ : Shape).Idx → BitVec 32)
    (x2 : (⟨2, ![100000, 512]⟩ : Shape).Idx → EReal) : EReal :=
  outK (words1 x1) (cosv (rows2 x0) (rows2 x2))

/-- The mean loss as the reference forms it, with shifts `M` and label indices `lbl`. -/
def lossOfR (x0 : (⟨2, ![512, 512]⟩ : Shape).Idx → EReal) (x1 : (⟨1, ![512]⟩ : Shape).Idx → BitVec 32)
    (x2 : (⟨2, ![100000, 512]⟩ : Shape).Idx → EReal) (M : Fin 512 → EReal) (lbl : Fin 512 → Fin 100000) : EReal :=
  outR (words1 x1) (cosv (rows2 x0) (rows2 x2)) M lbl

end Cert.ArcSpec

end
-- ==== Proof.KIAcc.lean ====
/-
  What one class tile adds to the two running sums, and what the last tile writes out: the body's stored values as
  functions of the buffers it reads.
-/
import proofs.«411548_j89867895701783_1_alg».proof.Proof.Gen.KernelIdeal.Skeleton
import proofs.«411548_j89867895701783_1_alg».proof.Proof.SpecArrays

noncomputable section

namespace Cert.KernelIdeal.Acc

open Cert.KernelIdeal Cert.KernelIdeal.Gen Idealize.ShloMosaic

variable {F : FTy → Type} [FloatOps F] [Named F]

/-- The running sum of exponentials after the tile at grid point `i`: what the body stores back, from the labels
    `x0`, the scaled embeddings `x1`, the tile's weight rows `x2` and the sum so far `xs`. -/
def stepL (i : grid0.Coords) (x0 : Vec F S512x1 .i32) (x1 : Vec F S512x512 .f32) (x2 : Vec F S1024x512 .f32)
    (xs : Vec F S512x1 .f32) : Vec F S512x1 .f32 :=
  k0_pay3 (k0_pay8 x2 x1) (k0_pay9 x2 x1) (k0_pay10 i) (k0_pay11 i) x0 xs

/-- The running label logit after the tile at grid point `i`. -/
def stepT (i : grid0.Coords) (x0 : Vec F S512x1 .i32) (x1 : Vec F S512x512 .f32) (x2 : Vec F S1024x512 .f32)
    (xs : Vec F S512x1 .f32) : Vec F S512x1 .f32 :=
  k0_pay4 (k0_pay8 x2 x1) (k0_pay9 x2 x1) (k0_pay10 i) (k0_pay11 i) x0 xs

/-- What the last tile writes out from the two finished sums: scale + log(sum of exponentials) − label logit. -/
def lossOut (l t : Vec F S512x1 .f32) : Vec F S512x1 .f32 := k0_pay5 l t

/-- The zeros the first tile resets the two sums to. -/
def zeroL : Vec F S512x1 .f32 := k0_pay6 (F := F)
def zeroT : Vec F S512x1 .f32 := k0_pay7 (F := F)

end Cert.KernelIdeal.Acc

end
-- ==== Proof.KIPieces.lean ====
/-
  What the body's stores leave in the two running sums and in the output's buffer, read back: the stored values as
  functions of what the body loaded.
-/
import proofs.«411548_j89867895701783_1_alg».proof.Proof.KIRunA
import proofs.«411548_j89867895701783_1_alg».proof.Proof.KIRunB
import proofs.«411548_j89867895701783_1_alg».proof.Proof.KIRunC
import proofs.«411548_j89867895701783_1_alg».proof.Proof.KIAcc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Acc

/-! ## Case A -/

/-- The pieces stored into the running sum of exponentials cover its buffer. -/
theorem coverL_A (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : condFirst i) (hcL : ¬condLast i)
    (x0 : Vec F S512x1 .i32) (x1 : Vec F S512x512 .f32) (x2 : Vec F S1024x512 .f32) (y : S512x1.Idx) :
    ∃ pc ∈ (kernelRunA c i arg1 harg1 arg2 harg2 arg3 harg3 arg4 harg4 arg5 harg5 arg6 harg6 hcF hcL x0 x1 x2).2.1, y ∈ pc.1.set :=
  View.cover_of_tiledL (kernelRunA c i arg1 harg1 arg2 harg2 arg3 harg3 arg4 harg4 arg5 harg5 arg6 harg6 hcF hcL x0 x1 x2).2.1 S512x1.size (by sl_kernel_rfl) y

/-- Read back, they are the tile's update of the sum from zero. -/
theorem pieceL_A (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : condFirst i) (hcL : ¬condLast i)
    (x0 : Vec F S512x1 .i32) (x1 : Vec F S512x512 .f32) (x2 : Vec F S1024x512 .f32) :
    arg5.view.read (Elt F) (arg5.view.writes (Elt F) arg5.view.junk (kernelRunA c i arg1 harg1 arg2 harg2 arg3 harg3 arg4 harg4 arg5 harg5 arg6 harg6 hcF hcL x0 x1 x2).2.1) = stepL i x0 x1 x2 (zeroL (F := F)) := by
  have hz : (![0, 0] : Fin 2 → Nat) = fun _ => 0 := funext fun a => by fin_cases a <;> rfl
  rw [View.read_writes_eq_canon _ _ _ (coverL_A c i arg1 harg1 arg2 harg2 arg3 harg3 arg4 harg4 arg5 harg5 arg6 harg6 hcF hcL x0 x1 x2)]
  unfold kernelRunA
  dsimp only
  sl_unfold_words
  rw [View.canon_cons_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

/-- The pieces stored into the running label logit cover its buffer. -/
theorem coverT_A (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : condFirst i) (hcL : ¬condLast i)
    (x0 : Vec F S512x1 .i32) (x1 : Vec F S512x512 .f32) (x2 : Vec F S1024x512 .f32) (y : S512x1.Idx) :
    ∃ pc ∈ (kernelRunA c i arg1 harg1 arg2 harg2 arg3 harg3 arg4 harg4 arg5 harg5 arg6 harg6 hcF hcL x0 x1 x2).2.2.1, y ∈ pc.1.set :=
  View.cover_of_tiledL (kernelRunA c i arg1 harg1 arg2 harg2 arg3 harg3 arg4 harg4 arg5 harg5 arg6 harg6 hcF hcL x0 x1 x2).2.2.1 S512x1.size (by sl_kernel_rfl) y

/-- Read back, they are the tile's update of the label logit from zero. -/
theorem pieceT_A (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : condFirst i) (hcL : ¬condLast i)
    (x0 : Vec F S512x1 .i32) (x1 : Vec F S512x512 .f32) (x2 : Vec F S1024x512 .f32) :
    arg6.view.read (Elt F) (arg6.view.writes (Elt F) arg6.view.junk (kernelRunA c i arg1 harg1 arg2 harg2 arg3 harg3 arg4 harg4 arg5 harg5 arg6 harg6 hcF hcL x0 x1 x2).2.2.1) = stepT i x0 x1 x2 (zeroT (F := F)) := by
  have hz : (![0, 0] : Fin 2 → Nat) = fun _ => 0 := funext fun a => by fin_cases a <;> rfl
  rw [View.read_writes_eq_canon _ _ _ (coverT_A c i arg1 harg1 arg2 harg2 arg3 harg3 arg4 harg4 arg5 harg5 arg6 harg6 hcF hcL x0 x1 x2)]
  unfold kernelRunA
  dsimp only
  sl_unfold_words
  rw [View.canon_cons_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

/-! ## Case B -/

/-- The pieces stored into the running sum of exponentials cover its buffer. -/
theorem coverL_B (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : ¬condLast i)
    (x0 : Vec F S512x1 .i32) (x1 : Vec F S512x512 .f32) (x2 : Vec F S1024x512 .f32) (xs0 xs1 : Vec F S512x1 .f32) (y : S512x1.Idx) :
    ∃ pc ∈ (kernelRunB c i arg1 harg1 arg2 harg2 arg3 harg3 arg4 harg4 arg5 harg5 arg6 harg6 hcF hcL x0 x1 x2 xs0 xs1).2.1, y ∈ pc.1.set :=
  View.cover_of_tiledL (kernelRunB c i arg1 harg1 arg2 harg2 arg3 harg3 arg4 harg4 arg5 harg5 arg6 harg6 hcF hcL x0 x1 x2 xs0 xs1).2.1 S512x1.size (by sl_kernel_rfl) y

/-- Read back, they are the tile's update of the sum before it. -/
theorem pieceL_B (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : ¬condLast i)
    (x0 : Vec F S512x1 .i32) (x1 : Vec F S512x512 .f32) (x2 : Vec F S1024x512 .f32) (xs0 xs1 : Vec F S512x1 .f32) :
    arg5.view.read (Elt F) (arg5.view.writes (Elt F) arg5.view.junk (kernelRunB c i arg1 harg1 arg2 harg2 arg3 harg3 arg4 harg4 arg5 harg5 arg6 harg6 hcF hcL x0 x1 x2 xs0 xs1).2.1) = stepL i x0 x1 x2 xs0 := by
  have hz : (![0, 0] : Fin 2 → Nat) = fun _ => 0 := funext fun a => by fin_cases a <;> rfl
  rw [View.read_writes_eq_canon _ _ _ (coverL_B c i arg1 harg1 arg2 harg2 arg3 harg3 arg4 harg4 arg5 harg5 arg6 harg6 hcF hcL x0 x1 x2 xs0 xs1)]
  unfold kernelRunB
  dsimp only
  sl_unfold_words
  rw [View.canon_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

/-- The pieces stored into the running label logit cover its buffer. -/
theorem coverT_B (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : ¬condLast i)
    (x0 : Vec F S512x1 .i32) (x1 : Vec F S512x512 .f32) (x2 : Vec F S1024x512 .f32) (xs0 xs1 : Vec F S512x1 .f32) (y : S512x1.Idx) :
    ∃ pc ∈ (kernelRunB c i arg1 harg1 arg2 harg2 arg3 harg3 arg4 harg4 arg5 harg5 arg6 harg6 hcF hcL x0 x1 x2 xs0 xs1).2.2.1, y ∈ pc.1.set :=
  View.cover_of_tiledL (kernelRunB c i arg1 harg1 arg2 harg2 arg3 harg3 arg4 harg4 arg5 harg5 arg6 harg6 hcF hcL x0 x1 x2 xs0 xs1).2.2.1 S512x1.size (by sl_kernel_rfl) y

/-- Read back, they are the tile's update of the label logit before it. -/
theorem pieceT_B (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : ¬condLast i)
    (x0 : Vec F S512x1 .i32) (x1 : Vec F S512x512 .f32) (x2 : Vec F S1024x512 .f32) (xs0 xs1 : Vec F S512x1 .f32) :
    arg6.view.read (Elt F) (arg6.view.writes (Elt F) arg6.view.junk (kernelRunB c i arg1 harg1 arg2 harg2 arg3 harg3 arg4 harg4 arg5 harg5 arg6 harg6 hcF hcL x0 x1 x2 xs0 xs1).2.2.1) = stepT i x0 x1 x2 xs1 := by
  have hz : (![0, 0] : Fin 2 → Nat) = fun _ => 0 := funext fun a => by fin_cases a <;> rfl
  rw [View.read_writes_eq_canon _ _ _ (coverT_B c i arg1 harg1 arg2 harg2 arg3 harg3 arg4 harg4 arg5 harg5 arg6 harg6 hcF hcL x0 x1 x2 xs0 xs1)]
  unfold kernelRunB
  dsimp only
  sl_unfold_words
  rw [View.canon_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

/-! ## Case C -/

/-- The pieces stored into the running sum of exponentials cover its buffer. -/
theorem coverL_C (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) (y : S512x1.Idx) :
    ∃ pc ∈ (kernelRunC c i arg1 harg1 arg2 harg2 arg3 harg3 arg4 harg4 arg5 harg5 arg6 harg6 hcF hcL x0 x1 x2 xs0 xs1).2.1, y ∈ pc.1.set :=
  View.cover_of_tiledL (kernelRunC c i arg1 harg1 arg2 harg2 arg3 harg3 arg4 harg4 arg5 harg5 arg6 harg6 hcF hcL x0 x1 x2 xs0 xs1).2.1 S512x1.size (by sl_kernel_rfl) y

/-- Read back, they are the tile's update of the sum before it. -/
theorem pieceL_C (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) :
    arg5.view.read (Elt F) (arg5.view.writes (Elt F) arg5.view.junk (kernelRunC c i arg1 harg1 arg2 harg2 arg3 harg3 arg4 harg4 arg5 harg5 arg6 harg6 hcF hcL x0 x1 x2 xs0 xs1).2.1) = stepL i x0 x1 x2 xs0 := by
  have hz : (![0, 0] : Fin 2 → Nat) = fun _ => 0 := funext fun a => by fin_cases a <;> rfl
  rw [View.read_writes_eq_canon _ _ _ (coverL_C c i arg1 harg1 arg2 harg2 arg3 harg3 arg4 harg4 arg5 harg5 arg6 harg6 hcF hcL x0 x1 x2 xs0 xs1)]
  unfold kernelRunC
  dsimp only
  sl_unfold_words
  rw [View.canon_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

/-- The pieces stored into the running label logit cover its buffer. -/
theorem coverT_C (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) (y : S512x1.Idx) :
    ∃ pc ∈ (kernelRunC c i arg1 harg1 arg2 harg2 arg3 harg3 arg4 harg4 arg5 harg5 arg6 harg6 hcF hcL x0 x1 x2 xs0 xs1).2.2.1, y ∈ pc.1.set :=
  View.cover_of_tiledL (kernelRunC c i arg1 harg1 arg2 harg2 arg3 harg3 arg4 harg4 arg5 harg5 arg6 harg6 hcF hcL x0 x1 x2 xs0 xs1).2.2.1 S512x1.size (by sl_kernel_rfl) y

/-- Read back, they are the tile's update of the label logit before it. -/
theorem pieceT_C (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) :
    arg6.view.read (Elt F) (arg6.view.writes (Elt F) arg6.view.junk (kernelRunC c i arg1 harg1 arg2 harg2 arg3 harg3 arg4 harg4 arg5 harg5 arg6 harg6 hcF hcL x0 x1 x2 xs0 xs1).2.2.1) = stepT i x0 x1 x2 xs1 := by
  have hz : (![0, 0] : Fin 2 → Nat) = fun _ => 0 := funext fun a => by fin_cases a <;> rfl
  rw [View.read_writes_eq_canon _ _ _ (coverT_C c i arg1 harg1 arg2 harg2 arg3 harg3 arg4 harg4 arg5 harg5 arg6 harg6 hcF hcL x0 x1 x2 xs0 xs1)]
  unfold kernelRunC
  dsimp only
  sl_unfold_words
  rw [View.canon_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

/-- The piece stored into the output's buffer covers it. -/
theorem coverO_C (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) (y : S512x1.Idx) :
    ∃ pc ∈ (kernelRunC c i arg1 harg1 arg2 harg2 arg3 harg3 arg4 harg4 arg5 harg5 arg6 harg6 hcF hcL x0 x1 x2 xs0 xs1).1, y ∈ pc.1.set :=
  View.cover_of_tiledL (kernelRunC c i arg1 harg1 arg2 harg2 arg3 harg3 arg4 harg4 arg5 harg5 arg6 harg6 hcF hcL x0 x1 x2 xs0 xs1).1 S512x1.size (by sl_kernel_rfl) y

/-- Read back, it is the loss of the two finished sums. -/
theorem pieceO_C (c : Dev nD) (i : grid0.Coords) (arg1 : Memref sig .tc .vmem S512x1 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hcF : ¬condFirst i) (hcL : condLast i)
    (x0 : Vec F S512x1 .i32) (x1 : Vec F S512x512 .f32) (x2 : Vec F S1024x512 .f32) (xs0 xs1 : Vec F S512x1 .f32) :
    arg4.view.read (Elt F) (arg4.view.writes (Elt F) arg4.view.junk (kernelRunC c i arg1 harg1 arg2 harg2 arg3 harg3 arg4 harg4 arg5 harg5 arg6 harg6 hcF hcL x0 x1 x2 xs0 xs1).1)
      = lossOut (stepL i x0 x1 x2 xs0) (stepT i x0 x1 x2 xs1) := by
  have hz : (![0, 0] : Fin 2 → Nat) = fun _ => 0 := funext fun a => by fin_cases a <;> rfl
  rw [View.read_writes_eq_canon _ _ _ (coverO_C c i arg1 harg1 arg2 harg2 arg3 harg3 arg4 harg4 arg5 harg5 arg6 harg6 hcF hcL x0 x1 x2 xs0 xs1)]
  unfold kernelRunC
  dsimp only
  sl_unfold_words
  rw [View.canon_unit_zero (S := S512x1) hz]
  simp only [View.readAt_eq_ld, harg1.read_unread, harg2.read_unread, harg3.read_unread, harg5.read_unread, harg6.read_unread,
    View.ld_unit_zero (S := S512x1) hz, View.ld_unit_zero (S := S512x512) hz, View.ld_unit_zero (S := S1024x512) hz,
    View.readCov_unit_zero (S := S512x1) _ hz]
  rfl

end Cert.KernelIdeal.Hand

end
-- ==== Proof.KITile.lean ====
/-
  One class tile at the extended reals: what the body adds to the two running sums, entry by entry.

  Row j of the tile is class n·1024 + j. The cosine of sample b and that class is the inner product of the scaled
  embedding row with the tile's row divided by max(its norm, eps); the logit is the scale times the margin of the
  cosine at the sample's label and the scale times the cosine elsewhere; a row past the last class (n·1024 + j ≥ 100000)
  has the fill −∞ in the logit's place, whose exponential is zero.

  The order below: two column forms of the layout operations (a vector read as a column, a column spread over many
  columns); the tile's rows divided by max(norm, eps), entry by entry; the class index of a row as a 32-bit word, the
  bit that says it is below the number of classes (the index is below 98·1024 < 2^31, so the signed comparison is the
  comparison of numbers) and the bit that says it is the sample's label; the cosines as the contraction along the
  feature axis, re-indexed by the one contracted coordinate; the margin; the logits with the fill; the two lane sums.
-/
import proofs.«411548_j89867895701783_1_alg».proof.Proof.KIAcc
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Tile

open Cert.KernelIdeal Cert.KernelIdeal.Gen Cert.KernelIdeal.Acc Cert.ArcSpec Idealize.ShloMosaic Idealize.ShloMosaic.ValueIdx

/-- The cosine of sample `b` and the tile's row `j`. -/
def tileCos (x1 : FVec Ideal S512x512 .f32) (x2 : FVec Ideal S1024x512 .f32) (b : Fin 512) (j : Fin 1024) : EReal :=
  ∑ d : Fin 512, x1 (ix2 b d) * unitRow (rows2 x2) j d

/-- The logit of sample `b` at row `j` of tile `n`. -/
def tileLogit (n : ℕ) (x0 : IVec S512x1 32) (x1 : FVec Ideal S512x512 .f32) (x2 : FVec Ideal S1024x512 .f32)
    (b : Fin 512) (j : Fin 1024) : EReal :=
  SCALE * (if x0 (ix2 b (0 : Fin 1)) = BitVec.ofNat 32 (n * 1024 + j.val) then margin (tileCos x1 x2 b j) else tileCos x1 x2 b j)

/-! ### Two column forms of the layout operations -/

/-- A vector of length a viewed as a column [a, 1] reads, at (p, q), the vector at p. -/
theorem colCast_apply {α : Type} {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- A column [a, 1] broadcast over b columns reads, at (p, c), the column at (p, 0). -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The tile's rows divided by max(norm, eps) -/

/-- The sum of the squares of each row of the tile. -/
def rowSq (x2 : FVec Ideal S1024x512 .f32) : FVec Ideal S1024 .f32 :=
  multiReduction .add [1] S1024 (mulf x2 x2) 0x00000000#32 reduces_S1024x512_S1024 (.inl rfl) rfl

/-- max(the root of that sum, eps), as a column. -/
def rowDen (x2 : FVec Ideal S1024x512 .f32) : FVec Ideal S1024x1 .f32 :=
  maximumf (sqrt (shapeCast S1024x1 (rowSq x2) shapeCasts_S1024_S1024x1)) (broadcast S1024x1 (Scalar.ofBits .f32 0x2B8CBCCC#32))

/-- The tile with each row divided by its column entry. -/
def rowUnit (x2 : FVec Ideal S1024x512 .f32) : FVec Ideal S1024x512 .f32 :=
  divf x2 (broadcastTo S1024x512 (rowDen x2) broadcasts_S1024x1_S1024x512)

/-- The sum of the squares of row j is the sum over the row's entries. -/
theorem rowSq_apply (x2 : FVec Ideal S1024x512 .f32) (j : Fin 1024) :
    rowSq x2 (ix1 j) = ∑ k : Fin 512, x2 (ix2 j k) * x2 (ix2 j k) := by
  unfold rowSq
  refine (Ideal.multiReduction_add_single (mulf x2 x2) 0x00000000#32 reduces_S1024x512_S1024 (.inl rfl) rfl (ix1 j)).trans ?_
  refine Finset.sum_congr rfl fun k _ => ?_
  have e : reduces_S1024x512_S1024.lift (ix1 j) k = ix2 j k :=
    funext fun a => Fin.ext (by match a with | ⟨0, _⟩ => rfl | ⟨1, _⟩ => rfl)
  rw [e]
  rfl

/-- Entry (j, d) of the scaled tile is the row's entry divided by max(its norm, eps). -/
theorem rowUnit_apply (x2 : FVec Ideal S1024x512 .f32) (j : Fin 1024) (d : Fin 512) :
    rowUnit x2 (ix2 j d) = unitRow (rows2 x2) j d := by
  unfold rowUnit unitRow rows2
  show Ideal.div (x2 (ix2 j d)) (broadcastTo S1024x512 (rowDen x2) broadcasts_S1024x1_S1024x512 (ix2 j d)) = _
  rw [colBroadcast_apply (rowDen x2) broadcasts_S1024x1_S1024x512 j d]
  unfold rowDen
  show Ideal.div (x2 (ix2 j d)) (max (Ideal.sqrt (shapeCast S1024x1 (rowSq x2) shapeCasts_S1024_S1024x1 (ix2 j (0 : Fin 1)))) EPS) = _
  rw [colCast_apply (rowSq x2) shapeCasts_S1024_S1024x1 j (0 : Fin 1), rowSq_apply]

/-! ### The class index of a row, the bit that says it is a class, and the label match -/

/-- Row j of the tile at grid point i has class index i·1024 + j, held as a 32-bit word. -/
theorem pay10_apply (i : grid0.Coords) (b : Fin 512) (j : Fin 1024) :
    k0_pay10 i (ix2 b j) = BitVec.ofNat 32 ((i 0).val * 1024 + j.val) := by
  unfold k0_pay10
  show IntOp.addi (IntOp.muli (BitVec.ofNat 32 (i 0).val) 1024#32)
      (iota .tc S512x1024 32 [1] iota_S512x1024_d1_w32 (ix2 b j)) = _
  rw [iota_single_apply]
  show BitVec.ofNat 32 (i 0).val * BitVec.ofNat 32 1024 + BitVec.ofNat 32 j.val = _
  rw [← BitVec.ofNat_mul, ← BitVec.ofNat_add]

/-- The index is below 98·1024 < 2^31, so the signed comparison with 100000 is the comparison of the numbers. -/
theorem pay11_apply (i : grid0.Coords) (b : Fin 512) (j : Fin 1024) :
    k0_pay11 i (ix2 b j) = if (i 0).val * 1024 + j.val < 100000 then 1#1 else 0#1 := by
  have hi : (i 0).val < 98 := (i 0).isLt
  have hj : j.val < 1024 := j.isLt
  have hc : (100000#32 : BitVec 32).toInt = 100000 := by decide
  unfold k0_pay11
  show IntOp.cmpi .slt (k0_pay10 i (ix2 b j)) 100000#32 = _
  rw [pay10_apply]
  unfold IntOp.cmpi
  show BitVec.ofBool ((BitVec.ofNat 32 ((i 0).val * 1024 + j.val)).slt 100000#32) = _
  rw [BitVec.slt_eq_decide, hc, BitVec.toInt_eq_toNat_of_lt (by rw [BitVec.toNat_ofNat]; omega), BitVec.toNat_ofNat,
    Nat.mod_eq_of_lt (by omega)]
  by_cases h : (i 0).val * 1024 + j.val < 100000
  · rw [if_pos h, decide_eq_true (by omega), BitVec.ofBool_true]; rfl
  · rw [if_neg h, decide_eq_false (by omega), BitVec.ofBool_false]; rfl

/-- The label column broadcast over the tile's rows, compared with a word at (b, j): whether sample b's label is it. -/
theorem pay1_apply (v36 : IVec S512x1024 32) (x0 : IVec S512x1 32) (b : Fin 512) (j : Fin 1024) :
    k0_pay1 (F := Ideal) v36 x0 (ix2 b j) = if x0 (ix2 b (0 : Fin 1)) = v36 (ix2 b j) then 1#1 else 0#1 := by
  unfold k0_pay1
  show IntOp.cmpi .eq (broadcastTo S512x1024 (shapeCast S512x1 x0 shapeCasts_S512x1_S512x1) broadcasts_S512x1_S512x1024 (ix2 b j))
      (v36 (ix2 b j)) = _
  rw [colBroadcast_apply _ broadcasts_S512x1_S512x1024 b j, shapeCast_self]
  unfold IntOp.cmpi
  show BitVec.ofBool (x0 (ix2 b (0 : Fin 1)) == v36 (ix2 b j)) = _
  by_cases h : x0 (ix2 b (0 : Fin 1)) = v36 (ix2 b j)
  · rw [if_pos h, beq_iff_eq.mpr h, BitVec.ofBool_true]; rfl
  · rw [if_neg h, beq_eq_false_iff_ne.mpr h, BitVec.ofBool_false]; rfl

/-! ### The cosines: the embeddings contracted with the scaled tile along the feature axis -/

/-- The body's block of cosines is the contraction of the embeddings block with the scaled tile, added into zeros. -/
theorem pay8_eq (x2 : FVec Ideal S1024x512 .f32) (x1 : FVec Ideal S512x512 .f32) :
    k0_pay8 (F := Ideal) x2 x1
      = matmul dot_S512x512_S1024x512_S512x1024_1_1_0_0_n_n none
          (truncf .bf16 (shapeCast S512x512 x1 shapeCasts_S512x512_S512x512) bitsLt_bf16_f32)
          (truncf .bf16 (rowUnit x2) bitsLt_bf16_f32) (constant S512x1024 .f32 0x00000000#32) := rfl

/-- The left operand's index at output (r, c) and contraction index q: row r … -/
theorem lhs_cos_0 (y : S512x1024.Idx) (q : dot_S512x512_S1024x512_S512x1024_1_1_0_0_n_n.contr.Idx) :
    (dot_S512x512_S1024x512_S512x1024_1_1_0_0_n_n.lhsIdx y q 0).val = (y 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
/-- … and column q. -/
theorem lhs_cos_1 (y : S512x1024.Idx) (q : dot_S512x512_S1024x512_S512x1024_1_1_0_0_n_n.contr.Idx) :
    (dot_S512x512_S1024x512_S512x1024_1_1_0_0_n_n.lhsIdx y q 1).val = (q ⟨0, by decide⟩).val :=
  dot_S512x512_S1024x512_S512x1024_1_1_0_0_n_n.lhsIdx_val_of_single rfl y q
/-- The right operand's index: row c … -/
theorem rhs_cos_0 (y : S512x1024.Idx) (q : dot_S512x512_S1024x512_S512x1024_1_1_0_0_n_n.contr.Idx) :
    (dot_S512x512_S1024x512_S512x1024_1_1_0_0_n_n.rhsIdx y q 0).val = (y 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
/-- … and column q. -/
theorem rhs_cos_1 (y : S512x1024.Idx) (q : dot_S512x512_S1024x512_S512x1024_1_1_0_0_n_n.contr.Idx) :
    (dot_S512x512_S1024x512_S512x1024_1_1_0_0_n_n.rhsIdx y q 1).val = (q ⟨0, by decide⟩).val :=
  dot_S512x512_S1024x512_S512x1024_1_1_0_0_n_n.rhsIdx_val_of_single rfl y q

/-- The body's cosine at (b, j) is the inner product of the embedding row b with the scaled row j. -/
theorem pay8_apply (x2 : FVec Ideal S1024x512 .f32) (x1 : FVec Ideal S512x512 .f32) (b : Fin 512) (j : Fin 1024) :
    k0_pay8 (F := Ideal) x2 x1 (ix2 b j) = tileCos x1 x2 b j := by
  rw [pay8_eq]
  unfold tileCos
  refine (Ideal.matmul_constant_zero_apply dot_S512x512_S1024x512_S512x1024_1_1_0_0_n_n none _ _ (ix2 b j)).trans ?_
  rw [← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 b j) ((contrEquiv1 dot_S512x512_S1024x512_S512x1024_1_1_0_0_n_n 512 rfl rfl).symm k) = ix2 b k :=
    funext fun a => Fin.ext (by
      match a with
      | ⟨0, _⟩ => exact lhs_cos_0 _ _
      | ⟨1, _⟩ => exact (lhs_cos_1 _ _).trans hk)
  have er : dot_S512x512_S1024x512_S512x1024_1_1_0_0_n_n.rhsIdx (ix2 b j) ((contrEquiv1 dot_S512x512_S1024x512_S512x1024_1_1_0_0_n_n 512 rfl rfl).symm k) = ix2 j k :=
    funext fun a => Fin.ext (by
      match a with
      | ⟨0, _⟩ => exact rhs_cos_0 _ _
      | ⟨1, _⟩ => exact (rhs_cos_1 _ _).trans hk)
  rw [el, er]
  show shapeCast S512x512 x1 shapeCasts_S512x512_S512x512 (ix2 b k) * rowUnit x2 (ix2 j k) = _
  rw [shapeCast_self, rowUnit_apply]

/-! ### The margin of the cosines -/

/-- The body's margin block is the margin function of the cosine, entry by entry. -/
theorem pay9_apply (x2 : FVec Ideal S1024x512 .f32) (x1 : FVec Ideal S512x512 .f32) (y : S512x1024.Idx) :
    k0_pay9 (F := Ideal) x2 x1 y = margin (k0_pay8 (F := Ideal) x2 x1 y) := rfl

/-! ### The logits, with the fill past the last class -/

/-- The fill's name denotes −∞. -/
theorem negFill : Named.named (F := Ideal) κ "neg_fill" (φ := .f32) 0xFF333332#32 = (⊥ : EReal) :=
  IdealRules.named_const.ideal_named_scalar _ _ _ _ rfl

/-- A select on the bit of a decided proposition is the `if` on it. -/
theorem select_bit {α : Type} (P : Prop) [Decidable P] (a c : α) :
    Scalar.select (if P then 1#1 else 0#1) a c = if P then a else c := by
  by_cases h : P
  · rw [if_pos h, if_pos h]; exact select_one a c
  · rw [if_neg h, if_neg h]; exact select_zero a c

/-- The body's logit block, entry by entry: where the validity bit is set the scale times the select of the margin and
    the cosine on the match bit, elsewhere the fill. -/
theorem pay2_eq (v16 v32 : FVec Ideal S512x1024 .f32) (v36 : IVec S512x1024 32) (v38 : IVec S512x1024 1)
    (v39 : IVec S512x1 32) (y : S512x1024.Idx) :
    k0_pay2 (F := Ideal) v16 v32 v36 v38 v39 y
      = Scalar.select (v38 y) (SCALE * Scalar.select (k0_pay1 (F := Ideal) v36 v39 y) (v32 y) (v16 y))
          (Named.named (F := Ideal) κ "neg_fill" (φ := .f32) 0xFF333332#32) := rfl

/-- The body's logit at (b, j): the tile's logit where the row is a class, −∞ past the last class. -/
theorem pay2_apply (i : grid0.Coords) (x0 : IVec S512x1 32) (x1 : FVec Ideal S512x512 .f32) (x2 : FVec Ideal S1024x512 .f32)
    (b : Fin 512) (j : Fin 1024) :
    k0_pay2 (F := Ideal) (k0_pay8 x2 x1) (k0_pay9 x2 x1) (k0_pay10 i) (k0_pay11 i) x0 (ix2 b j)
      = if (i 0).val * 1024 + j.val < 100000 then tileLogit (i 0).val x0 x1 x2 b j else ⊥ := by
  rw [pay2_eq, pay11_apply, pay1_apply, pay10_apply, pay9_apply, pay8_apply, negFill, select_bit, select_bit]
  rfl

/-! ### The two lane sums -/

/-- The sum along the tile's rows of a [512, 1024] block, at sample b. -/
theorem laneSum_apply (v : FVec Ideal S512x1024 .f32) (b : Fin 512) :
    multiReduction .add [1] S512 v 0x00000000#32 reduces_S512x1024_S512 (.inl rfl) rfl (ix1 b) = ∑ j : Fin 1024, v (ix2 b j) := by
  refine (Ideal.multiReduction_add_single v 0x00000000#32 reduces_S512x1024_S512 (.inl rfl) rfl (ix1 b)).trans ?_
  refine Finset.sum_congr rfl fun k _ => ?_
  exact congrArg v (funext fun a => Fin.ext (by match a with | ⟨0, _⟩ => rfl | ⟨1, _⟩ => rfl))

/-- The first sum as the body stores it back: the sum so far plus the lane sum of the exponentials of the logits less the scale. -/
theorem pay3_eq (v16 v32 : FVec Ideal S512x1024 .f32) (v36 : IVec S512x1024 32) (v38 : IVec S512x1024 1)
    (v39 : IVec S512x1 32) (xs : FVec Ideal S512x1 .f32) :
    k0_pay3 (F := Ideal) v16 v32 v36 v38 v39 xs
      = shapeCast S512x1 (addf xs (shapeCast S512x1
          (multiReduction .add [1] S512
            (exp (subf (k0_pay2 (F := Ideal) v16 v32 v36 v38 v39) (broadcast S512x1024 (Scalar.ofBits .f32 0x42800000#32))))
            0x00000000#32 reduces_S512x1024_S512 (.inl rfl) rfl) shapeCasts_S512_S512x1)) shapeCasts_S512x1_S512x1 := rfl

/-- The second sum as the body stores it back: the sum so far plus the lane sum of the logits where the match bit is set, zero elsewhere. -/
theorem pay4_eq (v16 v32 : FVec Ideal S512x1024 .f32) (v36 : IVec S512x1024 32) (v38 : IVec S512x1024 1)
    (v39 : IVec S512x1 32) (xs : FVec Ideal S512x1 .f32) :
    k0_pay4 (F := Ideal) v16 v32 v36 v38 v39 xs
      = shapeCast S512x1 (addf xs (shapeCast S512x1
          (multiReduction .add [1] S512
            (select (k0_pay1 (F := Ideal) v36 v39) (k0_pay2 (F := Ideal) v16 v32 v36 v38 v39)
              (broadcast S512x1024 (Scalar.ofBits .f32 0x00000000#32)))
            0x00000000#32 reduces_S512x1024_S512 (.inl rfl) rfl) shapeCasts_S512_S512x1)) shapeCasts_S512x1_S512x1 := rfl

/-- The sum of exponentials grows by the exponentials of the tile's logits less the scale, over the rows that are classes. -/
theorem stepL_apply (i : grid0.Coords) (x0 : IVec S512x1 32) (x1 : FVec Ideal S512x512 .f32) (x2 : FVec Ideal S1024x512 .f32)
    (xs : FVec Ideal S512x1 .f32) (b : Fin 512) :
    stepL (F := Ideal) i x0 x1 x2 xs (ix2 b (0 : Fin 1))
      = xs (ix2 b (0 : Fin 1)) + ∑ j : Fin 1024,
          (if (i 0).val * 1024 + j.val < 100000 then Ideal.exp (tileLogit (i 0).val x0 x1 x2 b j - SCALE) else 0) := by
  unfold stepL
  rw [pay3_eq, shapeCast_self]
  show xs (ix2 b (0 : Fin 1)) + shapeCast S512x1 _ shapeCasts_S512_S512x1 (ix2 b (0 : Fin 1)) = _
  rw [colCast_apply _ shapeCasts_S512_S512x1 b (0 : Fin 1), laneSum_apply]
  refine congrArg (xs (ix2 b (0 : Fin 1)) + ·) (Finset.sum_congr rfl fun j _ => ?_)
  show Ideal.exp (k0_pay2 (F := Ideal) (k0_pay8 x2 x1) (k0_pay9 x2 x1) (k0_pay10 i) (k0_pay11 i) x0 (ix2 b j) - SCALE) = _
  rw [pay2_apply]
  by_cases h : (i 0).val * 1024 + j.val < 100000
  · rw [if_pos h, if_pos h]
  · rw [if_neg h, if_neg h, EReal.bot_sub, Ideal.exp_bot]

/-- The label logit grows by the tile's logit at the row that is the sample's label, if the tile has it (a label row
    past the last class would add the fill). -/
theorem stepT_apply (i : grid0.Coords) (x0 : IVec S512x1 32) (x1 : FVec Ideal S512x512 .f32) (x2 : FVec Ideal S1024x512 .f32)
    (xs : FVec Ideal S512x1 .f32) (b : Fin 512) :
    stepT (F := Ideal) i x0 x1 x2 xs (ix2 b (0 : Fin 1))
      = xs (ix2 b (0 : Fin 1)) + ∑ j : Fin 1024,
          (if x0 (ix2 b (0 : Fin 1)) = BitVec.ofNat 32 ((i 0).val * 1024 + j.val)
            then (if (i 0).val * 1024 + j.val < 100000 then tileLogit (i 0).val x0 x1 x2 b j else ⊥) else 0) := by
  unfold stepT
  rw [pay4_eq, shapeCast_self]
  show xs (ix2 b (0 : Fin 1)) + shapeCast S512x1 _ shapeCasts_S512_S512x1 (ix2 b (0 : Fin 1)) = _
  rw [colCast_apply _ shapeCasts_S512_S512x1 b (0 : Fin 1), laneSum_apply]
  refine congrArg (xs (ix2 b (0 : Fin 1)) + ·) (Finset.sum_congr rfl fun j _ => ?_)
  show Scalar.select (k0_pay1 (F := Ideal) (k0_pay10 i) x0 (ix2 b j))
      (k0_pay2 (F := Ideal) (k0_pay8 x2 x1) (k0_pay9 x2 x1) (k0_pay10 i) (k0_pay11 i) x0 (ix2 b j))
      (Ideal.ofBits .f32 0x00000000#32) = _
  rw [pay1_apply, pay10_apply, pay2_apply, select_bit, Ideal.ofBits_zero_f32]

/-- The loss written out: scale + log(sum of exponentials) − label logit. -/
theorem lossOut_apply (l t : FVec Ideal S512x1 .f32) (b : Fin 512) :
    lossOut (F := Ideal) l t (ix2 b (0 : Fin 1)) = (SCALE + Ideal.log (l (ix2 b (0 : Fin 1)))) - t (ix2 b (0 : Fin 1)) := rfl

/-- The two sums start from zero. -/
theorem zeroL_apply (y : S512x1.Idx) : zeroL (F := Ideal) y = 0 := by
  unfold zeroL k0_pay6
  show shapeCast S512x1 (broadcast S512x1 (Ideal.ofBits .f32 0x00000000#32)) shapeCasts_S512x1_S512x1 y = 0
  rw [shapeCast_self]
  exact Ideal.ofBits_zero_f32
theorem zeroT_apply (y : S512x1.Idx) : zeroT (F := Ideal) y = 0 := by
  unfold zeroT k0_pay7
  show shapeCast S512x1 (broadcast S512x1 (Ideal.ofBits .f32 0x00000000#32)) shapeCasts_S512x1_S512x1 y = 0
  rw [shapeCast_self]
  exact Ideal.ofBits_zero_f32

end Cert.KernelIdeal.Tile

end
-- ==== Proof.LossAlgebra.lean ====
/-
  The two forms of the loss are one number when the cosines are real.

  For real logits x_c and any real shift s, log Σ exp(x_c − s) = log Σ exp(x_c) − s: the kernel shifts by the scale, the
  reference by the row's maximum, and both shifts cancel against the term added back. The one-hot blend
  1·φ + (1 − 1)·x and 0·φ + (1 − 0)·x is φ at the label and x elsewhere, and the sum over the classes of the logit at
  the label and zero elsewhere is the label's logit.
-/
import proofs.«411548_j89867895701783_1_alg».proof.Proof.Spec
import Idealize.ShloMosaic.PureOps.Ideal
import Mathlib.Data.EReal.Basic
import Mathlib.Data.EReal.Operations
import Mathlib.Analysis.SpecialFunctions.Exp
import Mathlib.Analysis.SpecialFunctions.Log.Basic
import Mathlib.Algebra.BigOperators.Field
import Mathlib.Algebra.Order.BigOperators.Group.Finset

noncomputable section

namespace Cert.ArcSpec

open Idealize.ShloMosaic

/-! ### The reals inside the extended reals -/

/-- The coercion of the reals into the extended reals carries a finite sum to the finite sum. -/
theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- A finite sum of reals is real. -/
theorem sum_real {ι : Type*} [Fintype ι] (f : ι → EReal) (hf : ∀ i, ∃ r : ℝ, f i = (r : EReal)) :
    ∃ r : ℝ, ∑ i, f i = (r : EReal) := by
  choose g hg using hf
  exact ⟨∑ i, g i, by rw [coe_sum]; exact Finset.sum_congr rfl fun i _ => hg i⟩

/-- The coercion is monotone, so it carries the larger of two reals to the larger of their images. -/
theorem max_coe (x y : ℝ) : max (x : EReal) (y : EReal) = ((max x y : ℝ) : EReal) :=
  (EReal.coe_strictMono.monotone.map_max).symm

/-! ### The literals -/

/-- A 32-bit word whose exponent field is not all ones denotes a real: a zero, a subnormal or a normal. -/
theorem f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  simp only [if_neg h]
  split_ifs <;> exact ⟨_, rfl⟩

theorem ZERO_eq : ZERO = 0 := by simp [Ideal.ofBits, Ideal.ieee]

/-- The word of one: exponent field 127, empty fraction, 2^23 · 2^(127 − 127 − 23) = 1. -/
theorem ONE_eq : ONE = 1 := by
  simp [Ideal.ofBits, Ideal.ieee, -EReal.coe_mul]; norm_num

/-- The epsilon is a positive real: a normal word with a clear sign bit, 9223372 · 2^(−63). -/
theorem EPS_pos : ∃ r : ℝ, 0 < r ∧ EPS = (r : EReal) :=
  ⟨9223372 * (2 ^ 63)⁻¹, by positivity, by simp [Ideal.ofBits, Ideal.ieee, -EReal.coe_mul]⟩

theorem COSM_real : ∃ r : ℝ, COSM = (r : EReal) := f32_real _ (by decide)
theorem SINM_real : ∃ r : ℝ, SINM = (r : EReal) := f32_real _ (by decide)
theorem MM_real : ∃ r : ℝ, MM = (r : EReal) := f32_real _ (by decide)
theorem SCALE_real : ∃ r : ℝ, SCALE = (r : EReal) := f32_real _ (by decide)

/-! ### The cosines are real -/

/-- A row of reals divided by max(its norm, eps) is a row of reals: the sum of the squares is a nonnegative real,
    so its root is a real, and the divisor is at least eps, a positive real, so it is a nonzero real. -/
theorem unitRow_real {n : Nat} (x : Fin n → Fin 512 → EReal) (hx : ∀ r d, ∃ q : ℝ, x r d = (q : EReal))
    (r : Fin n) (d : Fin 512) : ∃ q : ℝ, unitRow x r d = (q : EReal) := by
  obtain ⟨ε, hε, hE⟩ := EPS_pos
  choose y hy using hx r
  have hT : ∑ k : Fin 512, x r k * x r k = ((∑ k : Fin 512, y k * y k : ℝ) : EReal) := by
    rw [coe_sum]
    exact Finset.sum_congr rfl fun k _ => by rw [hy k, ← EReal.coe_mul]
  have hT0 : ¬ (∑ k : Fin 512, y k * y k) < 0 :=
    not_lt.mpr (Finset.sum_nonneg fun k _ => mul_self_nonneg (y k))
  have hne : max (Real.sqrt (∑ k : Fin 512, y k * y k)) ε ≠ 0 := (lt_max_of_lt_right hε).ne'
  unfold unitRow
  rw [hT, Ideal.sqrt_coe, if_neg hT0, hE, max_coe, Ideal.div_coe hne, hy d, ← EReal.coe_mul]
  exact ⟨_, rfl⟩

/-- The cosines of rows with real entries are real. -/
theorem cosv_real (e : Fin 512 → Fin 512 → EReal) (w : Fin 100000 → Fin 512 → EReal)
    (he : ∀ b d, ∃ r : ℝ, e b d = (r : EReal)) (hw : ∀ c d, ∃ r : ℝ, w c d = (r : EReal))
    (b : Fin 512) (c : Fin 100000) : ∃ r : ℝ, cosv e w b c = (r : EReal) := by
  unfold cosv
  refine sum_real _ fun d => ?_
  obtain ⟨p, hp⟩ := unitRow_real e he b d
  obtain ⟨q, hq⟩ := unitRow_real w hw c d
  exact ⟨p * q, by rw [hp, hq, ← EReal.coe_mul]⟩

/-! ### The label -/

/-- A class index is below 100000 < 2^32, so its 32-bit word determines it: class c is the label exactly when
    c is the label's class. -/
theorem isLabel_iff (lab : Fin 512 → BitVec 32) (lbl : Fin 512 → Fin 100000)
    (hl : ∀ b, lab b = BitVec.ofNat 32 (lbl b).val) (b : Fin 512) (c : Fin 100000) :
    isLabel lab b c ↔ c = lbl b := by
  unfold isLabel
  rw [hl b]
  constructor
  · intro h
    have h' := congrArg BitVec.toNat h
    have hc : c.val % 2 ^ 32 = c.val := Nat.mod_eq_of_lt (lt_trans c.isLt (by norm_num))
    have hb : (lbl b).val % 2 ^ 32 = (lbl b).val := Nat.mod_eq_of_lt (lt_trans (lbl b).isLt (by norm_num))
    rw [BitVec.toNat_ofNat, BitVec.toNat_ofNat, hb, hc] at h'
    exact Fin.ext h'.symm
  · intro h
    rw [h]

/-- A sum that keeps one index's term and puts zero elsewhere is that term. -/
theorem sum_pick {ι : Type*} [Fintype ι] (p : ι → Prop) [DecidablePred p] (l : ι) (hp : ∀ c, p c ↔ c = l)
    (f : ι → EReal) : ∑ c, (if p c then f c else 0) = f l := by
  rw [Finset.sum_eq_single l]
  · rw [if_pos ((hp l).mpr rfl)]
  · intro c _ hc
    rw [if_neg fun h => hc ((hp c).mp h)]
  · intro h
    exact absurd (Finset.mem_univ l) h

/-! ### The logits -/

/-- The margin function of a real is real: both arms are sums and products of reals, and the root is taken of
    max(0, 1 − x²), which is nonnegative. -/
theorem margin_real (r : ℝ) : ∃ q : ℝ, margin (r : EReal) = (q : EReal) := by
  obtain ⟨cm, hcm⟩ := COSM_real
  obtain ⟨sm, hsm⟩ := SINM_real
  obtain ⟨mm, hmm⟩ := MM_real
  unfold margin Scalar.select
  split_ifs
  · have h1 : max ZERO (ONE - (r : EReal) * (r : EReal)) = ((max 0 (1 - r * r) : ℝ) : EReal) := by
      rw [ZERO_eq, ONE_eq, ← EReal.coe_mul, ← EReal.coe_one, ← EReal.coe_sub, ← EReal.coe_zero, max_coe]
    refine ⟨r * cm - Real.sqrt (max 0 (1 - r * r)) * sm, ?_⟩
    rw [h1, Ideal.sqrt_coe, if_neg (not_lt.mpr (le_max_left _ _)), hcm, hsm, ← EReal.coe_mul, ← EReal.coe_mul,
      ← EReal.coe_sub]
  · exact ⟨r - mm, by rw [hmm, ← EReal.coe_sub]⟩

/-- With real cosines every logit of the kernel's form is real. -/
theorem logitK_real (lab : Fin 512 → BitVec 32) (cs : Fin 512 → Fin 100000 → EReal)
    (hcs : ∀ b c, ∃ r : ℝ, cs b c = (r : EReal)) (b : Fin 512) (c : Fin 100000) :
    ∃ x : ℝ, logitK lab cs b c = (x : EReal) := by
  obtain ⟨s, hs⟩ := SCALE_real
  obtain ⟨r, hr⟩ := hcs b c
  unfold logitK
  rw [hs, hr]
  split_ifs
  · obtain ⟨q, hq⟩ := margin_real r
    exact ⟨s * q, by rw [hq, ← EReal.coe_mul]⟩
  · exact ⟨s * r, by rw [← EReal.coe_mul]⟩

/-- The one-hot blend is the selection: at the label 1·φ + (1 − 1)·x = φ, elsewhere 0·φ + (1 − 0)·x = x. -/
theorem logitR_eq_logitK (lab : Fin 512 → BitVec 32) (cs : Fin 512 → Fin 100000 → EReal) (b : Fin 512)
    (c : Fin 100000) : logitR lab cs b c = logitK lab cs b c := by
  unfold logitR logitK hot
  split_ifs
  · rw [ONE_eq, one_mul, ← EReal.coe_one, ← EReal.coe_sub, sub_self, EReal.coe_zero, zero_mul, add_zero]
  · rw [ZERO_eq, ONE_eq, zero_mul, sub_zero, one_mul, zero_add]

/-! ### The shift of the exponentials -/

/-- For reals x_c over a nonempty finite index and a real shift s, log Σ exp(x_c − s) = log Σ exp(x_c) − s:
    Σ exp(x_c − s) = (Σ exp x_c) / exp s, both sums are positive, and log(S / exp s) = log S − s. -/
theorem log_sum_exp_shift {ι : Type*} [Fintype ι] [Nonempty ι] (x : ι → ℝ) (s : ℝ) :
    Ideal.log (∑ c, Ideal.exp ((x c : EReal) - (s : EReal)))
      = ((Real.log (∑ c, Real.exp (x c)) - s : ℝ) : EReal) := by
  have h1 : ∀ c, Ideal.exp ((x c : EReal) - (s : EReal)) = ((Real.exp (x c - s) : ℝ) : EReal) := by
    intro c
    rw [← EReal.coe_sub, Ideal.exp_coe]
  have hpos : 0 < ∑ c, Real.exp (x c - s) :=
    Finset.sum_pos (fun c _ => Real.exp_pos _) Finset.univ_nonempty
  have hS : 0 < ∑ c, Real.exp (x c) :=
    Finset.sum_pos (fun c _ => Real.exp_pos _) Finset.univ_nonempty
  have h2 : ∑ c, Real.exp (x c - s) = (∑ c, Real.exp (x c)) / Real.exp s := by
    rw [Finset.sum_div]
    exact Finset.sum_congr rfl fun c _ => Real.exp_sub _ _
  simp only [h1]
  rw [← coe_sum, Ideal.log_coe, if_neg (not_le.mpr hpos), h2, Real.log_div hS.ne' (Real.exp_ne_zero s),
    Real.log_exp]

/-! ### The two losses -/

/-- Per sample: with S = Σ exp(x_c), the kernel's s + (log S − s) − x_l and the reference's
    −((x_l − m) − (log S − m)) are both log S − x_l. -/
theorem lossK_eq_lossR (lab : Fin 512 → BitVec 32) (cs : Fin 512 → Fin 100000 → EReal) (M : Fin 512 → EReal)
    (lbl : Fin 512 → Fin 100000)
    (hcs : ∀ b c, ∃ r : ℝ, cs b c = (r : EReal)) (hM : ∀ b, ∃ r : ℝ, M b = (r : EReal))
    (hl : ∀ b, lab b = BitVec.ofNat 32 (lbl b).val) (b : Fin 512) :
    lossK lab cs b = lossR lab cs M b (lbl b) := by
  obtain ⟨s, hs⟩ := SCALE_real
  obtain ⟨m, hm⟩ := hM b
  choose x hx using fun c => logitK_real lab cs hcs b c
  haveI : Nonempty (Fin 100000) := ⟨lbl b⟩
  have hsum : ∑ c : Fin 100000, (if isLabel lab b c then logitK lab cs b c else ZERO)
      = logitK lab cs b (lbl b) := by
    rw [ZERO_eq]
    exact sum_pick (fun c => isLabel lab b c) (lbl b) (fun c => isLabel_iff lab lbl hl b c) _
  unfold lossK lossR
  rw [hsum]
  simp only [logitR_eq_logitK, hx, hs, hm]
  rw [log_sum_exp_shift x s, log_sum_exp_shift x m, ← EReal.coe_add, ← EReal.coe_sub, ← EReal.coe_sub,
    ← EReal.coe_sub, ← EReal.coe_neg]
  exact congrArg Real.toEReal (by ring)

/-- With real cosines, real shifts and every label a class, the kernel's mean loss is the reference's. -/
theorem outK_eq_outR (lab : Fin 512 → BitVec 32) (cs : Fin 512 → Fin 100000 → EReal) (M : Fin 512 → EReal)
    (lbl : Fin 512 → Fin 100000)
    (hcs : ∀ b c, ∃ r : ℝ, cs b c = (r : EReal)) (hM : ∀ b, ∃ r : ℝ, M b = (r : EReal))
    (hl : ∀ b, lab b = BitVec.ofNat 32 (lbl b).val) :
    outK lab cs = outR lab cs M lbl := by
  have h : ∑ b : Fin 512, lossK lab cs b = ∑ b : Fin 512, lossR lab cs M b (lbl b) :=
    Finset.sum_congr rfl fun b _ => lossK_eq_lossR lab cs M lbl hcs hM hl b
  unfold outK outR
  rw [h]

end Cert.ArcSpec

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.KISum.lean ====
/-
  The two running sums over all the class tiles, and the loss written out at the last one.

  Tile n holds the classes n·1024 … n·1024 + 1023; the 98 tiles cover the 100000 classes once, the last tile's rows
  past the last class adding nothing. So the sum of exponentials after the last tile is the sum over all classes, the
  label logit is the logit at the sample's label, and the loss written out is the specification's.
-/
import proofs.«411548_j89867895701783_1_alg».proof.Proof.KITile
import proofs.«411548_j89867895701783_1_alg».proof.Proof.LossAlgebra
import proofs.«411548_j89867895701783_1_alg».proof.Proof.LibTileSums

noncomputable section

namespace Cert.KernelIdeal.Sum

open Cert.KernelIdeal Cert.KernelIdeal.Gen Cert.KernelIdeal.Acc Cert.KernelIdeal.Tile Cert.ArcSpec Idealize.ShloMosaic Idealize.ShloMosaic.ValueIdx

/-! ### Indices and rows -/

/-- Every index of a one-column array is a row with column zero. -/
theorem exists_col (y : S512x1.Idx) : ∃ b : Fin 512, y = ix2 b (0 : Fin 1) :=
  ⟨y 0, by
    funext a
    match a with
    | ⟨0, _⟩ => rfl
    | ⟨1, h⟩ =>
      exact @Subsingleton.elim (Fin 1) _ (y ⟨1, h⟩) 0⟩

/-- A row divided by max(its norm, eps) depends on that row only. -/
theorem unitRow_congr {n m : ℕ} (x : Fin n → Fin 512 → EReal) (y : Fin m → Fin 512 → EReal) (r : Fin n) (r' : Fin m)
    (h : ∀ d, x r d = y r' d) (d : Fin 512) : unitRow x r d = unitRow y r' d := by
  unfold unitRow
  rw [show x r = y r' from funext h]

/-- The cosine at row `j` of a tile reads the tile's buffer on row `j` only. -/
theorem tileCos_congr (x1 : FVec Ideal S512x512 .f32) (x2 x2' : FVec Ideal S1024x512 .f32) (b : Fin 512) (j : Fin 1024)
    (h : ∀ d : Fin 512, x2 (ix2 j d) = x2' (ix2 j d)) : tileCos x1 x2 b j = tileCos x1 x2' b j := by
  unfold tileCos
  exact Finset.sum_congr rfl fun d _ => by
    rw [unitRow_congr (rows2 x2) (rows2 x2') j j (fun d => h d) d]

/-- Likewise the logit. -/
theorem tileLogit_congr (n : ℕ) (x0 : IVec S512x1 32) (x1 : FVec Ideal S512x512 .f32) (x2 x2' : FVec Ideal S1024x512 .f32)
    (b : Fin 512) (j : Fin 1024) (h : ∀ d : Fin 512, x2 (ix2 j d) = x2' (ix2 j d)) :
    tileLogit n x0 x1 x2 b j = tileLogit n x0 x1 x2' b j := by
  unfold tileLogit
  rw [tileCos_congr x1 x2 x2' b j h]

/-- One tile's update of the sum of exponentials reads the tile's buffer only on the rows that are classes. -/
theorem stepL_congr (i : grid0.Coords) (x0 : IVec S512x1 32) (x1 : FVec Ideal S512x512 .f32) (x2 x2' : FVec Ideal S1024x512 .f32)
    (xs : FVec Ideal S512x1 .f32)
    (h : ∀ (j : Fin 1024) (d : Fin 512), (i 0).val * 1024 + j.val < 100000 → x2 (ix2 j d) = x2' (ix2 j d)) :
    stepL (F := Ideal) i x0 x1 x2 xs = stepL (F := Ideal) i x0 x1 x2' xs := by
  funext y
  obtain ⟨b, rfl⟩ := exists_col y
  rw [stepL_apply, stepL_apply]
  congr 1
  refine Finset.sum_congr rfl fun j _ => ?_
  by_cases hv : (i 0).val * 1024 + j.val < 100000
  · rw [if_pos hv, if_pos hv, tileLogit_congr (i 0).val x0 x1 x2 x2' b j (fun d => h j d hv)]
  · rw [if_neg hv, if_neg hv]

/-- Likewise the label logit's. -/
theorem stepT_congr (i : grid0.Coords) (x0 : IVec S512x1 32) (x1 : FVec Ideal S512x512 .f32) (x2 x2' : FVec Ideal S1024x512 .f32)
    (xs : FVec Ideal S512x1 .f32)
    (h : ∀ (j : Fin 1024) (d : Fin 512), (i 0).val * 1024 + j.val < 100000 → x2 (ix2 j d) = x2' (ix2 j d)) :
    stepT (F := Ideal) i x0 x1 x2 xs = stepT (F := Ideal) i x0 x1 x2' xs := by
  funext y
  obtain ⟨b, rfl⟩ := exists_col y
  rw [stepT_apply, stepT_apply]
  congr 1
  refine Finset.sum_congr rfl fun j _ => ?_
  by_cases hv : (i 0).val * 1024 + j.val < 100000
  · rw [if_pos hv, if_pos hv, tileLogit_congr (i 0).val x0 x1 x2 x2' b j (fun d => h j d hv)]
  · rw [if_neg hv, if_neg hv]

/-- The two running sums after tile `n`: the first tile from zeros, each later tile from the sums before it. `ι n` is
    the grid point of tile `n` and `w2 n` what the tile's buffer holds. -/
def accAt (ι : ℕ → grid0.Coords) (x0 : IVec S512x1 32) (x1 : FVec Ideal S512x512 .f32) (w2 : ℕ → FVec Ideal S1024x512 .f32) :
    ℕ → FVec Ideal S512x1 .f32 × FVec Ideal S512x1 .f32
  | 0 => (stepL (F := Ideal) (ι 0) x0 x1 (w2 0) (zeroL (F := Ideal)), stepT (F := Ideal) (ι 0) x0 x1 (w2 0) (zeroT (F := Ideal)))
  | n + 1 => (stepL (F := Ideal) (ι (n + 1)) x0 x1 (w2 (n + 1)) (accAt ι x0 x1 w2 n).1,
              stepT (F := Ideal) (ι (n + 1)) x0 x1 (w2 (n + 1)) (accAt ι x0 x1 w2 n).2)

/-! ### The sums after the last tile -/

/-- The labels as a function of the sample. -/
def labOf (x0 : IVec S512x1 32) : Fin 512 → BitVec 32 := fun b => x0 (ix2 b (0 : Fin 1))

/-- The cosines of the samples and the classes: the inner products of the scaled embedding rows with the weight rows
    divided by max(their norm, eps). -/
def cosOf (x1 : FVec Ideal S512x512 .f32) (wt : FVec Ideal S100000x512 .f32) : Fin 512 → Fin 100000 → EReal :=
  fun b c => ∑ d : Fin 512, x1 (ix2 b d) * unitRow (rows2 wt) c d

/-- What tile `n` adds to sample `b`'s sum of exponentials. -/
def tileL (x0 : IVec S512x1 32) (x1 : FVec Ideal S512x512 .f32) (w2 : ℕ → FVec Ideal S1024x512 .f32) (b : Fin 512) (n : ℕ) : EReal :=
  ∑ j : Fin 1024, (if n * 1024 + j.val < 100000 then Ideal.exp (tileLogit n x0 x1 (w2 n) b j - SCALE) else 0)

/-- What tile `n` adds to sample `b`'s label logit. -/
def tileT (x0 : IVec S512x1 32) (x1 : FVec Ideal S512x512 .f32) (w2 : ℕ → FVec Ideal S1024x512 .f32) (b : Fin 512) (n : ℕ) : EReal :=
  ∑ j : Fin 1024, (if x0 (ix2 b (0 : Fin 1)) = BitVec.ofNat 32 (n * 1024 + j.val)
    then (if n * 1024 + j.val < 100000 then tileLogit n x0 x1 (w2 n) b j else ⊥) else 0)

/-- The update of the sum of exponentials at the grid point of tile `n`. -/
theorem stepL_at (ι : ℕ → grid0.Coords) (hι : ∀ n, n < 98 → ((ι n) 0).val = n) (n : ℕ) (hn : n < 98)
    (x0 : IVec S512x1 32) (x1 : FVec Ideal S512x512 .f32) (x2 : FVec Ideal S1024x512 .f32) (xs : FVec Ideal S512x1 .f32) (b : Fin 512) :
    stepL (F := Ideal) (ι n) x0 x1 x2 xs (ix2 b (0 : Fin 1))
      = xs (ix2 b (0 : Fin 1)) + ∑ j : Fin 1024,
          (if n * 1024 + j.val < 100000 then Ideal.exp (tileLogit n x0 x1 x2 b j - SCALE) else 0) := by
  have h := stepL_apply (ι n) x0 x1 x2 xs b
  rw [hι n hn] at h
  exact h

/-- The update of the label logit at the grid point of tile `n`. -/
theorem stepT_at (ι : ℕ → grid0.Coords) (hι : ∀ n, n < 98 → ((ι n) 0).val = n) (n : ℕ) (hn : n < 98)
    (x0 : IVec S512x1 32) (x1 : FVec Ideal S512x512 .f32) (x2 : FVec Ideal S1024x512 .f32) (xs : FVec Ideal S512x1 .f32) (b : Fin 512) :
    stepT (F := Ideal) (ι n) x0 x1 x2 xs (ix2 b (0 : Fin 1))
      = xs (ix2 b (0 : Fin 1)) + ∑ j : Fin 1024,
          (if x0 (ix2 b (0 : Fin 1)) = BitVec.ofNat 32 (n * 1024 + j.val)
            then (if n * 1024 + j.val < 100000 then tileLogit n x0 x1 x2 b j else ⊥) else 0) := by
  have h := stepT_apply (ι n) x0 x1 x2 xs b
  rw [hι n hn] at h
  exact h

/-- After the last tile the sum of exponentials is the sum of what the 98 tiles added. -/
theorem accL_eq (ι : ℕ → grid0.Coords) (hι : ∀ n, n < 98 → ((ι n) 0).val = n)
    (x0 : IVec S512x1 32) (x1 : FVec Ideal S512x512 .f32) (w2 : ℕ → FVec Ideal S1024x512 .f32) (b : Fin 512) :
    (accAt ι x0 x1 w2 97).1 (ix2 b (0 : Fin 1)) = ∑ k : Fin 98, tileL x0 x1 w2 b k.val := by
  refine LibTileSums.fold_last (tileL x0 x1 w2 b) (fun n => (accAt ι x0 x1 w2 n).1 (ix2 b (0 : Fin 1))) 97 ?_ ?_
  · show stepL (F := Ideal) (ι 0) x0 x1 (w2 0) (zeroL (F := Ideal)) (ix2 b (0 : Fin 1)) = 0 + tileL x0 x1 w2 b 0
    rw [stepL_at ι hι 0 (by norm_num), zeroL_apply]
    rfl
  · intro j hj
    show stepL (F := Ideal) (ι (j + 1)) x0 x1 (w2 (j + 1)) (accAt ι x0 x1 w2 j).1 (ix2 b (0 : Fin 1))
      = (accAt ι x0 x1 w2 j).1 (ix2 b (0 : Fin 1)) + tileL x0 x1 w2 b (j + 1)
    rw [stepL_at ι hι (j + 1) hj]
    rfl

/-- After the last tile the label logit is the sum of what the 98 tiles added. -/
theorem accT_eq (ι : ℕ → grid0.Coords) (hι : ∀ n, n < 98 → ((ι n) 0).val = n)
    (x0 : IVec S512x1 32) (x1 : FVec Ideal S512x512 .f32) (w2 : ℕ → FVec Ideal S1024x512 .f32) (b : Fin 512) :
    (accAt ι x0 x1 w2 97).2 (ix2 b (0 : Fin 1)) = ∑ k : Fin 98, tileT x0 x1 w2 b k.val := by
  refine LibTileSums.fold_last (tileT x0 x1 w2 b) (fun n => (accAt ι x0 x1 w2 n).2 (ix2 b (0 : Fin 1))) 97 ?_ ?_
  · show stepT (F := Ideal) (ι 0) x0 x1 (w2 0) (zeroT (F := Ideal)) (ix2 b (0 : Fin 1)) = 0 + tileT x0 x1 w2 b 0
    rw [stepT_at ι hι 0 (by norm_num), zeroT_apply]
    rfl
  · intro j hj
    show stepT (F := Ideal) (ι (j + 1)) x0 x1 (w2 (j + 1)) (accAt ι x0 x1 w2 j).2 (ix2 b (0 : Fin 1))
      = (accAt ι x0 x1 w2 j).2 (ix2 b (0 : Fin 1)) + tileT x0 x1 w2 b (j + 1)
    rw [stepT_at ι hι (j + 1) hj]
    rfl

/-! ### A tile's rows are classes -/

/-- The cosine at a class row of tile `n` is the cosine of the sample and class `n·1024 + j`: the row of the tile's
    buffer is that row of the weights, entry by entry, so the two norms and the two quotients agree. -/
theorem tileCos_class (x1 : FVec Ideal S512x512 .f32) (wt : FVec Ideal S100000x512 .f32) (x2 : FVec Ideal S1024x512 .f32)
    (n : ℕ) (b : Fin 512) (j : Fin 1024) (hc : n * 1024 + j.val < 100000)
    (hw : ∀ d : Fin 512, x2 (ix2 j d) = wt (ix2 (⟨n * 1024 + j.val, hc⟩ : Fin 100000) d)) :
    tileCos x1 x2 b j = cosOf x1 wt b ⟨n * 1024 + j.val, hc⟩ := by
  unfold tileCos cosOf
  exact Finset.sum_congr rfl fun d _ => by
    rw [unitRow_congr (rows2 x2) (rows2 wt) j ⟨n * 1024 + j.val, hc⟩ (fun d => hw d) d]

/-- The logit at a class row of tile `n` is the logit of the sample and class `n·1024 + j`. -/
theorem tileLogit_class (x0 : IVec S512x1 32) (x1 : FVec Ideal S512x512 .f32) (wt : FVec Ideal S100000x512 .f32)
    (x2 : FVec Ideal S1024x512 .f32) (n : ℕ) (b : Fin 512) (j : Fin 1024) (hc : n * 1024 + j.val < 100000)
    (hw : ∀ d : Fin 512, x2 (ix2 j d) = wt (ix2 (⟨n * 1024 + j.val, hc⟩ : Fin 100000) d)) :
    tileLogit n x0 x1 x2 b j = logitK (labOf x0) (cosOf x1 wt) b ⟨n * 1024 + j.val, hc⟩ := by
  unfold tileLogit logitK
  rw [tileCos_class x1 wt x2 n b j hc hw]
  by_cases hp : x0 (ix2 b (0 : Fin 1)) = BitVec.ofNat 32 (n * 1024 + j.val)
  · have hp' : isLabel (labOf x0) b ⟨n * 1024 + j.val, hc⟩ := hp
    rw [if_pos hp, if_pos hp']
  · have hp' : ¬ isLabel (labOf x0) b ⟨n * 1024 + j.val, hc⟩ := hp
    rw [if_neg hp, if_neg hp']

/-! ### From tiles to classes -/

/-- A function on the first `n` of `m` positions, continued by zero, has the same sum over the `m` positions. -/
theorem sum_extend {n m : ℕ} (h : n ≤ m) (g : Fin n → EReal) :
    ∑ k : Fin m, (if hk : k.val < n then g ⟨k.val, hk⟩ else 0) = ∑ c : Fin n, g c := by
  have e1 := Fin.sum_univ_eq_sum_range (fun k : ℕ => if hk : k < n then g ⟨k, hk⟩ else 0) m
  have e2 := Fin.sum_univ_eq_sum_range (fun k : ℕ => if hk : k < n then g ⟨k, hk⟩ else 0) n
  refine e1.trans ?_
  rw [← Finset.sum_subset (Finset.range_subset_range.2 h)
    (fun x _ hx => dif_neg (fun hk => hx (Finset.mem_range.2 hk))), ← e2]
  exact Finset.sum_congr rfl fun c _ => dif_pos c.isLt

/-- The 98 tiles' contributions to the sum of exponentials add up to the sum over the 100000 classes: tile `n` holds the
    classes n·1024 … n·1024 + 1023, and the rows of the last tile past the last class add zero. -/
theorem sumL_eq (x0 : IVec S512x1 32) (x1 : FVec Ideal S512x512 .f32) (wt : FVec Ideal S100000x512 .f32)
    (w2 : ℕ → FVec Ideal S1024x512 .f32)
    (hw : ∀ (n : ℕ) (j : Fin 1024) (d : Fin 512) (h : n * 1024 + j.val < 100000), w2 n (ix2 j d) = wt (ix2 ⟨n * 1024 + j.val, h⟩ d))
    (b : Fin 512) :
    ∑ k : Fin 98, tileL x0 x1 w2 b k.val
      = ∑ c : Fin 100000, Ideal.exp (logitK (labOf x0) (cosOf x1 wt) b c - SCALE) := by
  rw [← sum_extend (n := 100000) (m := 100352) (by norm_num)
    (fun c => Ideal.exp (logitK (labOf x0) (cosOf x1 wt) b c - SCALE))]
  refine LibTileSums.sum_tiles_of (A := 98) (B := 1024) (n := 100352) (by norm_num) _ _ (fun i => ?_)
  show tileL x0 x1 w2 b i.val = ∑ r : Fin 1024,
    (if hk : i.val * 1024 + r.val < 100000
      then Ideal.exp (logitK (labOf x0) (cosOf x1 wt) b ⟨i.val * 1024 + r.val, hk⟩ - SCALE) else 0)
  unfold tileL
  refine Finset.sum_congr rfl fun r _ => ?_
  by_cases hc : i.val * 1024 + r.val < 100000
  · rw [if_pos hc, dif_pos hc, tileLogit_class x0 x1 wt (w2 i.val) i.val b r hc (fun d => hw i.val r d hc)]
  · rw [if_neg hc, dif_neg hc]

/-- The 98 tiles' contributions to the label logit add up to the logit at the sample's label: the label is a class, so
    exactly one row of one tile matches it, and that row is a class row. -/
theorem sumT_eq (x0 : IVec S512x1 32) (x1 : FVec Ideal S512x512 .f32) (wt : FVec Ideal S100000x512 .f32)
    (w2 : ℕ → FVec Ideal S1024x512 .f32)
    (hw : ∀ (n : ℕ) (j : Fin 1024) (d : Fin 512) (h : n * 1024 + j.val < 100000), w2 n (ix2 j d) = wt (ix2 ⟨n * 1024 + j.val, h⟩ d))
    (b : Fin 512) (hl : (x0 (ix2 b (0 : Fin 1))).toNat < 100000) :
    ∑ k : Fin 98, tileT x0 x1 w2 b k.val
      = logitK (labOf x0) (cosOf x1 wt) b ⟨(x0 (ix2 b (0 : Fin 1))).toNat, hl⟩ := by
  have hg : ∀ i : Fin 98, tileT x0 x1 w2 b i.val = ∑ r : Fin 1024,
      (fun k : Fin 100352 => if x0 (ix2 b (0 : Fin 1)) = BitVec.ofNat 32 k.val
        then (fun k : Fin 100352 => if hk : k.val < 100000 then logitK (labOf x0) (cosOf x1 wt) b ⟨k.val, hk⟩ else ⊥) k
        else 0) ⟨i.val * 1024 + r.val, LibTileSums.tile_lt (A := 98) (B := 1024) (n := 100352) (by norm_num) i r⟩ := by
    intro i
    show tileT x0 x1 w2 b i.val = ∑ r : Fin 1024,
      (if x0 (ix2 b (0 : Fin 1)) = BitVec.ofNat 32 (i.val * 1024 + r.val)
        then (if hk : i.val * 1024 + r.val < 100000
          then logitK (labOf x0) (cosOf x1 wt) b ⟨i.val * 1024 + r.val, hk⟩ else ⊥)
        else 0)
    unfold tileT
    refine Finset.sum_congr rfl fun r _ => ?_
    by_cases hp : x0 (ix2 b (0 : Fin 1)) = BitVec.ofNat 32 (i.val * 1024 + r.val)
    · rw [if_pos hp, if_pos hp]
      by_cases hc : i.val * 1024 + r.val < 100000
      · rw [if_pos hc, dif_pos hc, tileLogit_class x0 x1 wt (w2 i.val) i.val b r hc (fun d => hw i.val r d hc)]
      · rw [if_neg hc, dif_neg hc]
    · rw [if_neg hp, if_neg hp]
  refine (LibTileSums.sum_tiles_of (A := 98) (B := 1024) (n := 100352) (by norm_num)
    (fun k : Fin 100352 => if x0 (ix2 b (0 : Fin 1)) = BitVec.ofNat 32 k.val
      then (fun k : Fin 100352 => if hk : k.val < 100000 then logitK (labOf x0) (cosOf x1 wt) b ⟨k.val, hk⟩ else ⊥) k
      else 0)
    (fun i : Fin 98 => tileT x0 x1 w2 b i.val) hg).trans ?_
  refine (LibTileSums.onehot_sum' (n := 100352) (by norm_num) (x0 (ix2 b (0 : Fin 1)))
    (fun k : Fin 100352 => if hk : k.val < 100000 then logitK (labOf x0) (cosOf x1 wt) b ⟨k.val, hk⟩ else ⊥)).trans ?_
  rw [dif_pos (lt_trans hl (by norm_num))]
  exact dif_pos hl

/-- The sum over the classes of the logit at the label and zero elsewhere is the logit at the label. -/
theorem labelSum_eq (x0 : IVec S512x1 32) (cs : Fin 512 → Fin 100000 → EReal)
    (hlab : ∀ b : Fin 512, (x0 (ix2 b (0 : Fin 1))).toNat < 100000) (b : Fin 512) :
    ∑ c : Fin 100000, (if isLabel (labOf x0) b c then logitK (labOf x0) cs b c else ZERO)
      = logitK (labOf x0) cs b ⟨(x0 (ix2 b (0 : Fin 1))).toNat, hlab b⟩ := by
  have hl : ∀ b' : Fin 512, labOf x0 b'
      = BitVec.ofNat 32 ((fun b' : Fin 512 => (⟨(x0 (ix2 b' (0 : Fin 1))).toNat, hlab b'⟩ : Fin 100000)) b').val := by
    intro b'
    apply BitVec.eq_of_toNat_eq
    show (x0 (ix2 b' (0 : Fin 1))).toNat = (BitVec.ofNat 32 (x0 (ix2 b' (0 : Fin 1))).toNat).toNat
    rw [BitVec.toNat_ofNat, Nat.mod_eq_of_lt (x0 (ix2 b' (0 : Fin 1))).isLt]
  rw [ZERO_eq]
  exact sum_pick (fun c => isLabel (labOf x0) b c) _ (fun c => isLabel_iff (labOf x0) _ hl b c) _

/-- With tile `n`'s buffer holding rows n·1024 … of the weights on the rows that are classes, and every label a class,
    the loss written out after the last tile is the specification's loss of the sample. -/
theorem loss_value (ι : ℕ → grid0.Coords) (hι : ∀ n, n < 98 → ((ι n) 0).val = n)
    (x0 : IVec S512x1 32) (x1 : FVec Ideal S512x512 .f32) (wt : FVec Ideal S100000x512 .f32) (w2 : ℕ → FVec Ideal S1024x512 .f32)
    (hw : ∀ (n : ℕ) (j : Fin 1024) (d : Fin 512) (h : n * 1024 + j.val < 100000), w2 n (ix2 j d) = wt (ix2 ⟨n * 1024 + j.val, h⟩ d))
    (hlab : ∀ b : Fin 512, (x0 (ix2 b (0 : Fin 1))).toNat < 100000) (b : Fin 512) :
    lossOut (F := Ideal) (accAt ι x0 x1 w2 97).1 (accAt ι x0 x1 w2 97).2 (ix2 b (0 : Fin 1))
      = lossK (fun b => x0 (ix2 b (0 : Fin 1))) (fun b c => ∑ d : Fin 512, x1 (ix2 b d) * unitRow (rows2 wt) c d) b := by
  show _ = lossK (labOf x0) (cosOf x1 wt) b
  unfold lossK
  rw [lossOut_apply, accL_eq ι hι x0 x1 w2 b, accT_eq ι hι x0 x1 w2 b, sumL_eq x0 x1 wt w2 hw b,
    sumT_eq x0 x1 wt w2 hw b (hlab b), labelSum_eq x0 (cosOf x1 wt) hlab b]

end Cert.KernelIdeal.Sum

end
-- ==== Proof.KIBlocks.lean ====
/-
  What the region finds in its arrays, and what the host lines around it compute.

  Before the region the host scales each embedding row by max(its norm, eps) and lays the labels out as a column; the
  labels' and the embeddings' windows are whole-array blocks, and the weights' window at tile t is the 1024 rows from
  t·1024 on (clipped at the array's end). After the region the host averages the 512 losses.
-/
import proofs.«411548_j89867895701783_1_alg».proof.Proof.Gen.KernelIdeal.Frame
import proofs.«411548_j89867895701783_1_alg».proof.Proof.SpecArrays
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost
import Idealize.ShloMosaic.Lib.ValueIdxRank1

set_option maxRecDepth 16384

noncomputable section

namespace Cert.KernelIdeal.Blocks

open Cert.KernelIdeal Cert.KernelIdeal.Gen Cert.ArcSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The index maps over the grid: the labels' and the embeddings' blocks sit at block index (0, 0) at every tile; the
    weights' block at tile `t` sits at block index (t, 0), and its transfer moves the rows of the block that lie
    inside the array (all 1024, or the 100000 − t·1024 that are left) and all 512 columns. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_2.xsize (grid0.coords t) (0 : Fin 2) = min 1024 (100000 - t.val * 1024)
    ∧ win0_2.xsize (grid0.coords t) (1 : Fin 2) = 512 :=
  (by decide +kernel : ∀ t : Fin grid0.N, _)

/-- The labels' window is the whole column at every tile. -/
theorem iblk0_eq (c : Dev nD) (t : Fin cfg0.N) : iblk m c 0 t = V m c main_v8 := by
  funext y
  unfold iblk
  rw [View.read_apply]
  show V m c main_v8 (((cfg0.win 0).blk t).view.emb y) = V m c main_v8 y
  congr 1
  funext a; apply Fin.ext
  obtain ⟨e0, e1, -⟩ := idx_facts t
  match a with
  | ⟨0, _⟩ => show win0_0.index t (0 : Fin 2) * 512 + 1 * (y 0).val = (y 0).val; rw [e0]; omega
  | ⟨1, _⟩ => show win0_0.index t (1 : Fin 2) * 1 + 1 * (y 1).val = (y 1).val; rw [e1]; omega

/-- The embeddings' window is the whole array at every tile. -/
theorem iblk1_eq (c : Dev nD) (t : Fin cfg0.N) : iblk m c 1 t = V m c main_v7 := by
  funext y
  unfold iblk
  rw [View.read_apply]
  show V m c main_v7 (((cfg0.win 1).blk t).view.emb y) = V m c main_v7 y
  congr 1
  funext a; apply Fin.ext
  obtain ⟨-, -, e0, e1, -⟩ := idx_facts t
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- The weights' buffer at tile `t`, whatever filled the rows past the array's end, holds on a row that is a class
    that class's row of the weights. -/
theorem fill_row (c : Dev nD) (t : Fin cfg0.N) (d : (cfg0.win 2).block.Idx → Elt Ideal (cfg0.win 2).elt)
    (j : Fin 1024) (k : Fin 512) (h : t.val * 1024 + j.val < 100000) :
    ((cfg0.win 2).fill (grid0.coords t) d (iblk m c 2 t) : S1024x512.Idx → EReal) (ix2 j k)
      = (V m c main_arg2 : S100000x512.Idx → EReal) (ix2 ⟨t.val * 1024 + j.val, h⟩ k) := by
  obtain ⟨-, -, -, -, e0, e1, x0, x1⟩ := idx_facts t
  -- row j of the block is a class, so it is among the rows the transfer moves
  have hmv : (cfg0.win 2).moved (grid0.coords t) (ix2 j k : S1024x512.Idx) = true := by
    rw [Window.moved_iff]
    intro a
    match a with
    | ⟨0, _⟩ => show j.val < win0_2.xsize (grid0.coords t) (0 : Fin 2); rw [x0]; have := j.isLt; omega
    | ⟨1, _⟩ => show k.val < win0_2.xsize (grid0.coords t) (1 : Fin 2); rw [x1]; exact k.isLt
  unfold Window.fill
  rw [dif_pos hmv]
  unfold iblk
  rw [View.read_apply]
  show V m c main_arg2 (((cfg0.win 2).blk t).view.emb _) = V m c main_arg2 _
  congr 1
  funext a; apply Fin.ext
  match a with
  | ⟨0, _⟩ => show win0_2.index t (0 : Fin 2) * 1024 + 1 * j.val = t.val * 1024 + j.val; rw [e0]; omega
  | ⟨1, _⟩ => show win0_2.index t (1 : Fin 2) * 512 + 1 * k.val = k.val; rw [e1]; omega

/-- The host lines before the region, as one function of the embeddings: x / max(sqrt(Σ x·x), eps), row by row. -/
def scaled (x : S512x512.Idx → EReal) : S512x512.Idx → EReal :=
  Host.divf (F := Ideal) (s := S512x512) (φ := .f32) x (broadcastInDim S512x512 ![0, 1] bcast_S512x1_S512x512_0_1
    (maximumf (F := Ideal) (s := S512x1) (φ := .f32) (Host.sqrt (F := Ideal) (s := S512x1) (φ := .f32)
      (broadcastInDim S512x1 ![0] bcast_S512_S512x1_0
        (Host.reduceAdd (F := Ideal) (φ := .f32) (mulf (F := Ideal) (s := S512x512) (φ := .f32) x x)
          (constant (F := Ideal) S_ .f32 0x00000000#32) reducesTo_S512x512_S512_d1 h_S_)))
     (broadcastInDim S512x1 ![] bcast_S_S512x1 (constant (F := Ideal) S_ .f32 0x2B8CBCCC#32))))

/-- The array of scaled embeddings is that function of the embeddings' argument. -/
theorem v7_eq (c : Dev nD) :
    (V m c main_v7 : S512x512.Idx → EReal) = scaled (m ((c.tc : Thread nD τ).loc main_arg0)) := by
  show StableHlo.after hostOps0 (fun b => m (c, b)) (Proc.devRef .tc main_v7) = _
  after_results
  rfl

/-- The sum of squares along a row, from zero: Σ_k x(b, k)². -/
theorem sumsq_apply (x : S512x512.Idx → EReal) (b : Fin 512) :
    (Host.reduceAdd (F := Ideal) (φ := .f32) (mulf (F := Ideal) (s := S512x512) (φ := .f32) x x)
        (constant (F := Ideal) S_ .f32 0x00000000#32) reducesTo_S512x512_S512_d1 h_S_ : S512.Idx → EReal) (ix1 b)
      = ∑ k : Fin 512, x (ix2 b k) * x (ix2 b k) := by
  refine (hostReduceAdd_apply _ _ _ _ _).trans ?_
  refine (Ideal.hostReduceAdd_single reducesTo_S512x512_S512_d1 (by decide) _ _ _).trans ?_
  rw [constant_apply, Ideal.ofBits_zero_f32, zero_add]
  refine Finset.sum_congr rfl fun k _ => ?_
  have hl : (by decide : S512x512.Reduces [1] S512).lift (ix1 b) k = ix2 b k :=
    funext fun a => match a with | ⟨0, _⟩ => Fin.ext rfl | ⟨1, _⟩ => Fin.ext rfl
  rw [hl]
  rfl

/-- Entry (b, d) of the scaled array: x(b, d) over max(the norm of row b, eps). -/
theorem scaled_apply (x : S512x512.Idx → EReal) (b d : Fin 512) :
    scaled x (ix2 b d) = unitRow (rows2 x) b d := by
  unfold scaled unitRow rows2
  refine (hostDivf_apply _ _ _).trans ?_
  congr 1
  refine (broadcastInDim_apply _ _ _ (ix2 b d) (ix2 b (0 : Fin 1))
    (fun a => match a with | ⟨0, _⟩ => rfl | ⟨1, _⟩ => rfl)).trans ?_
  show max (Ideal.sqrt _) _ = _
  refine congrArg₂ max (congrArg Ideal.sqrt ?_) ?_
  · refine (broadcastInDim_apply _ _ _ (ix2 b (0 : Fin 1)) (ix1 b) (fun a => match a with | ⟨0, _⟩ => rfl)).trans ?_
    exact sumsq_apply x b
  · exact broadcastInDim_scalar_apply _ _ _

/-- The scaled embeddings the region finds: each row of the argument divided by max(its norm, eps). -/
theorem embs_apply (c : Dev nD) (b d : Fin 512) :
    (V m c main_v7 : S512x512.Idx → EReal) (ix2 b d)
      = unitRow (rows2 (m ((c.tc : Thread nD τ).loc main_arg0) : S512x512.Idx → EReal)) b d := by
  rw [v7_eq]; exact scaled_apply _ b d

/-- The label column is the labels' argument laid out as 512 rows of one entry. -/
theorem v8_eq (c : Dev nD) :
    (V m c main_v8 : S512x1.Idx → BitVec 32)
      = shapeCast S512x1 (m ((c.tc : Thread nD τ).loc main_arg1) : S512.Idx → BitVec 32) shapeCasts_S512_S512x1 := by
  show StableHlo.after hostOps0 (fun b => m (c, b)) (Proc.devRef .tc main_v8) = _
  after_results
  rfl

/-- The label column the region finds: the labels. -/
theorem labs_apply (c : Dev nD) (b : Fin 512) :
    (V m c main_v8 : S512x1.Idx → BitVec 32) (ix2 b (0 : Fin 1))
      = (m ((c.tc : Thread nD τ).loc main_arg1) : S512.Idx → BitVec 32) (ix1 b) := by
  rw [v8_eq]
  exact shapeCast_apply _ _ (ix2 b (0 : Fin 1)) (ix1 b)
    (by rw [Shape.rowMajor_val_one, Shape.rowMajor_val_two]; show b.val = b.val * 1 + 0; omega)

/-- The host lines after the region, read at the result's one index: the column's 512 entries summed from zero, over 512. -/
theorem mean_apply (A : S512x1.Idx → EReal) (i : S_.Idx) :
    (Host.divf (F := Ideal) (s := S_) (φ := .f32)
      (Host.reduceAdd (F := Ideal) (φ := .f32) (shapeCast S512 A shapeCasts_S512x1_S512)
        (constant (F := Ideal) S_ .f32 0x00000000#32) reducesTo_S512_S_d0 h_S_)
      (constant (F := Ideal) S_ .f32 0x44000000#32) : S_.Idx → EReal) i
    = Ideal.div (∑ b : Fin 512, A (ix2 b (0 : Fin 1))) NB := by
  refine (hostDivf_apply _ _ _).trans ?_
  refine congrArg₂ Ideal.div ?_ rfl
  refine (hostReduceAdd_apply _ _ _ _ _).trans ?_
  refine (Ideal.hostReduceAdd_total reducesTo_S512_S_d0 (fun b => b.elim0) _ _ _).trans ?_
  rw [constant_apply, Ideal.ofBits_zero_f32, zero_add]
  -- the sum over the rank-1 indices is the sum over their coordinates
  refine ((idxEquiv1 (n := 512)).symm.sum_comp _).symm.trans ?_
  refine Finset.sum_congr rfl fun k _ => ?_
  exact shapeCast_apply _ _ (ix1 k) (ix2 k (0 : Fin 1))
    (by rw [Shape.rowMajor_val_two, Shape.rowMajor_val_one]; show k.val * 1 + 0 = k.val; omega)

/-- The host lines after the region: the result is the mean of the losses the region's output array holds. -/
theorem tail_value (dats : (p : Fin 1) → (c : Dev nD) → Dat τ (Elt Ideal) Unit ℕ (UR sig nD τ) ℕ (cfgs p) c) (c : Dev nD)
    (G : S512x1.Idx → EReal) (hG : ((dats 0 c).arrAt 3 cfg0.N : S512x1.Idx → EReal) = G) :
    (Pipeline.afterTail₀ cfgs dats 0 (V0 m) [hostOps1] c main_v12 : S_.Idx → EReal)
      = fun _ => Ideal.div (∑ b : Fin 512, G (ix2 b (0 : Fin 1))) NB := by
  unfold Pipeline.afterTail₀
  show StableHlo.after hostOps1 _ (Proc.devRef .tc main_v12) = _
  after_results
  -- the output array as the region leaves it
  have hA : (Pipeline.withArrays (cfgs 0).spec c (V0 m c) (fun w => (dats 0 c).arrAt w (cfgs 0).N)
      (Proc.devRef .tc main_v9) : S512x1.Idx → EReal) = G :=
    (Pipeline.withArrays_arr spec0 launch0.win.arr_inj c _ _ 3).trans hG
  funext i
  refine Eq.trans ?_ (mean_apply G i)
  rw [← hA]
  rfl

end Cert.KernelIdeal.Blocks

end
-- ==== Proof.KIData.lean ====
/-
  The region at the extended reals, with its buffers' contents named: after class tile n the two running sums hold the
  sums over the tiles up to n, and the last tile writes the losses out.
-/
import proofs.«411548_j89867895701783_1_alg».proof.Proof.KIPieces
import proofs.«411548_j89867895701783_1_alg».proof.Proof.KISum
import proofs.«411548_j89867895701783_1_alg».proof.Proof.KIBlocks

set_option maxRecDepth 16384

noncomputable section

namespace Cert.KernelIdeal.Data

open Cert.KernelIdeal Cert.KernelIdeal.Gen Cert.KernelIdeal.Hand Cert.KernelIdeal.Acc Cert.KernelIdeal.Sum Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The running sums, tile by tile -/

/-- The label column and the scaled embeddings as the region finds them. -/
abbrev labs (c : Dev nD) : IVec S512x1 32 := V m c main_v8
abbrev embs (c : Dev nD) : FVec Ideal S512x512 .f32 := V m c main_v7

/-- The grid point of tile `n`. -/
def pt (n : ℕ) : grid0.Coords := if h : n < cfg0.N then grid0.coords ⟨n, h⟩ else grid0.coords ⟨0, by decide⟩
/-- The weights' buffer at tile `n`: the tile's rows of the array, zero on the rows past the array's end. -/
def tileBuf (c : Dev nD) (n : ℕ) : FVec Ideal S1024x512 .f32 :=
  if h : n < cfg0.N then (cfg0.win 2).fill (grid0.coords ⟨n, h⟩) (fun _ => (0 : EReal)) (iblk m c 2 ⟨n, h⟩) else fun _ => 0
/-- The two running sums after tile `n`. -/
def acc (c : Dev nD) (n : ℕ) : FVec Ideal S512x1 .f32 × FVec Ideal S512x1 .f32 :=
  accAt pt (labs m c) (embs m c) (tileBuf m c) n

theorem pt_eq (t : Fin cfg0.N) : pt t.val = grid0.coords t := by unfold pt; rw [dif_pos t.isLt]
theorem tileBuf_eq (c : Dev nD) (t : Fin cfg0.N) :
    tileBuf m c t.val = (cfg0.win 2).fill (grid0.coords t) (fun _ => (0 : EReal)) (iblk m c 2 t) := by
  unfold tileBuf; rw [dif_pos t.isLt]

/-- A grid point's one coordinate is the tile's number. -/
theorem coords_val : ∀ t : Fin cfg0.N, ((grid0.coords t) 0).val = t.val :=
  (by decide +kernel : ∀ t : Fin grid0.N, ((grid0.coords t) 0).val = t.val)

theorem acc_first (c : Dev nD) (t : Fin cfg0.N) (h : t.val = 0) :
    acc m c t.val = (stepL (F := Ideal) (pt t.val) (labs m c) (embs m c) (tileBuf m c t.val) (zeroL (F := Ideal)),
                     stepT (F := Ideal) (pt t.val) (labs m c) (embs m c) (tileBuf m c t.val) (zeroT (F := Ideal))) := by
  rw [h]; rfl
theorem acc_next (c : Dev nD) (t : Fin cfg0.N) (h : t.val ≠ 0) :
    acc m c t.val = (stepL (F := Ideal) (pt t.val) (labs m c) (embs m c) (tileBuf m c t.val) (acc m c (t.val - 1)).1,
                     stepT (F := Ideal) (pt t.val) (labs m c) (embs m c) (tileBuf m c t.val) (acc m c (t.val - 1)).2) := by
  obtain ⟨n, hn⟩ := t
  cases n with
  | zero => exact absurd rfl h
  | succ n => rfl

/-- Whatever filled the buffer's rows past the array's end, the tile's update of the sum of exponentials is the one
    over the tile's rows of the array: the update reads the buffer on the rows that are classes only. -/
theorem stepL_tile (c : Dev nD) (t : Fin cfg0.N) (d : (cfg0.win 2).block.Idx → Elt Ideal (cfg0.win 2).elt) (xs : FVec Ideal S512x1 .f32) :
    stepL (F := Ideal) (grid0.coords t) (iblk m c 0 t) (iblk m c 1 t) ((cfg0.win 2).fill (grid0.coords t) d (iblk m c 2 t)) xs
      = stepL (F := Ideal) (pt t.val) (labs m c) (embs m c) (tileBuf m c t.val) xs := by
  rw [pt_eq, tileBuf_eq, iblk0_eq, iblk1_eq]
  exact stepL_congr _ _ _ _ _ _ (fun j k h => by
    have h' : t.val * 1024 + j.val < 100000 := by rw [← coords_val t]; exact h
    rw [fill_row m c t d j k h', fill_row m c t _ j k h'])
theorem stepT_tile (c : Dev nD) (t : Fin cfg0.N) (d : (cfg0.win 2).block.Idx → Elt Ideal (cfg0.win 2).elt) (xs : FVec Ideal S512x1 .f32) :
    stepT (F := Ideal) (grid0.coords t) (iblk m c 0 t) (iblk m c 1 t) ((cfg0.win 2).fill (grid0.coords t) d (iblk m c 2 t)) xs
      = stepT (F := Ideal) (pt t.val) (labs m c) (embs m c) (tileBuf m c t.val) xs := by
  rw [pt_eq, tileBuf_eq, iblk0_eq, iblk1_eq]
  exact stepT_congr _ _ _ _ _ _ (fun j k h => by
    have h' : t.val * 1024 + j.val < 100000 := by rw [← coords_val t]; exact h
    rw [fill_row m c t d j k h', fill_row m c t _ j k h'])

/-! ## The region's invariant and proof data -/

/-- Before tile `n`: at the first tile the region's own invariant (both sums at anything); afterwards the two sums at
    what the tiles before left, and the generator register at some state. -/
def PhiS (c : Dev nD) : (n : ℕ) → n ≤ cfg0.N → sProp 𝕄
  | 0, _ => Pipeline.ΦA spec0 c
  | n + 1, hn => iprop(iprop(owns (c : Thread nD τ) scL fullShare (acc m c n).1 ∗ owns (c : Thread nD τ) scT fullShare (acc m c n).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scL fullShare (acc m c n).1 ∗ owns (c : Thread nD τ) scT fullShare (acc m c n).2) ∗ (∃ r, prngReg c r)) := rfl
theorem PhiS_pos (c : Dev nD) (n : ℕ) (h : n ≤ cfg0.N) (hz : n ≠ 0) :
    PhiS m c n h = iprop(iprop(owns (c : Thread nD τ) scL fullShare (acc m c (n - 1)).1 ∗ owns (c : Thread nD τ) scT fullShare (acc m c (n - 1)).2) ∗ (∃ r, prngReg c r)) := by
  cases n with
  | zero => exact absurd rfl hz
  | succ n => rfl

/-- The proof data of the region on core `c`: the arrays as the region finds them; after the body at tile `t` the
    labels' and the embeddings' buffers at their blocks, the weights' at the tile's rows, the output's at the losses of
    the sums so far; the invariant above; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (grid0.coords t) (fun _ => (0 : EReal)) (iblk m c 2 t)
    | ⟨3, _⟩ => lossOut (F := Ideal) (acc m c t.val).1 (acc m c t.val).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = (cfg0.win 2).fill (grid0.coords t) (fun _ => (0 : EReal)) (iblk m c 2 t) := by dsimp only [dats]
theorem after3 (c : Dev nD) (t : Fin cfg0.N) :
    (dats m 0 c).after 3 t = lossOut (F := Ideal) (acc m c t.val).1 (acc m c t.val).2 := by dsimp only [dats]

/-- What the body finds in the inputs' buffers. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The weights' buffer is fetched at every tile: the tile's rows of the array, and `d` past the array's end. -/
theorem before2 (c : Dev nD) (t : Fin cfg0.N) (d) :
    (dats m 0 c).before 2 t d = (cfg0.win 2).fill (grid0.coords t) d (iblk m c 2 t) := by
  unfold Dat.before; rw [if_pos (fetch0_2 t)]; rfl

/-! ## Where the output's window is idle -/

theorem idle3_off : ∀ t : Fin cfg0.N, ¬condLast (grid0.coords t) → cfg0.idle 3 (grid0.coords t) = true := by decide +kernel
theorem noFlush3_off : ∀ t : Fin cfg0.N, ¬condLast (grid0.coords t) → (cfg0.win 3).flush t = false := by decide +kernel
theorem live3_last : ∀ t : Fin cfg0.N, condLast (grid0.coords t) → cfg0.idle 3 (grid0.coords t) = false := by decide +kernel

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns (the weights' buffer stated on the rows inside the array only). -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t)

theorem leaves0 (c : Dev nD) (t : Fin cfg0.N) :
    (dats m 0 c).leaves 0 t = owns (c : Thread nD τ) (ms0 t) fullShare ((dats m 0 c).after 0 t) := rfl
theorem leaves1 (c : Dev nD) (t : Fin cfg0.N) :
    (dats m 0 c).leaves 1 t = owns (c : Thread nD τ) (ms1 t) fullShare ((dats m 0 c).after 1 t) := rfl
theorem leaves2 (c : Dev nD) (t : Fin cfg0.N) :
    (dats m 0 c).leaves 2 t = iprop(∃ d, owns (c : Thread nD τ) (ms2 t) fullShare
      ((cfg0.win 2).fill (grid0.coords t) d ((cfg0.win 2).cut (grid0.coords t) ((dats m 0 c).after 2 t)))) := rfl

set_option maxHeartbeats 4800000 in
/-- The body at any tile: the inputs' buffers hold their blocks; the tile is the first, the last or neither, and that
    case's run applies; the invariant hands the body the two sums at what the tiles before left (at anything at the
    first tile) and takes them back at this tile's; at the last tile the output's buffer ends at the losses. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, after0, after1]
  by_cases hz : t.val = 0
  · have hL : ¬condLast (grid0.coords t) := fun h => by have := (hcondLast t).mp h; omega
    rw [Dat.leaves_idle (dats m 0 c) 3 t (idle3_off t hL) (noFlush3_off t hL)]
    rw [PhiS_castSucc m c t, PhiS_zero m c _ _ hz, PhiA_eq]
    iintro ⟨⟨⟨HL, HT⟩, Hg⟩, Ho, ⟨%d0, H0⟩, ⟨%d1, H1⟩, ⟨%d2, H2⟩, ⟨%d3, H3⟩⟩
    iapply ((kernelRunA c (grid0.coords t) _ _ _ _ _ _ _ _ _ _ _ _ ((hcondFirst t).mpr hz) hL (iblk m c 0 t) (iblk m c 1 t) ((cfg0.win 2).fill (grid0.coords t) d2 (iblk m c 2 t))).2.2.2 _ Set.univ _)
    isplitl [H0]; · iexact H0
    isplitl [H1]; · iexact H1
    isplitl [H2]; · iexact H2
    isplitl [H3]; · iexact H3
    isplitl [HL]; · iexact HL
    isplitl [HT]; · iexact HT
    iintro ⟨H0, H1, H2, H3, ⟨%eL, HL⟩, ⟨%eT, HT⟩⟩
    isplitl [HL HT Hg]
    · isplitr [Hg]
      · isplitl [HL]
        · unfold owns; iexists _; isplitr
          swap; · iexact HL
          ipureintro
          refine (View.read_writes_of_cover _ _ _ _ _ (coverL_A c _ _ _ _ _ _ _ _ _ _ _ _ _ _ _ _ _ _)).trans ((pieceL_A c _ _ _ _ _ _ _ _ _ _ _ _ _ _ _ _ _ _).trans ?_)
          rw [acc_first m c t hz]; exact stepL_tile m c t _ _
        · unfold owns; iexists _; isplitr
          swap; · iexact HT
          ipureintro
          refine (View.read_writes_of_cover _ _ _ _ _ (coverT_A c _ _ _ _ _ _ _ _ _ _ _ _ _ _ _ _ _ _)).trans ((pieceT_A c _ _ _ _ _ _ _ _ _ _ _ _ _ _ _ _ _ _).trans ?_)
          rw [acc_first m c t hz]; exact stepT_tile m c t _ _
      · iexact Hg
    isplitl [Ho]; · iexact Ho
    isplitl [H0]; · iexact H0
    isplitl [H1]; · iexact H1
    isplitl [H2]
    · iexists d2; rw [after2, Window.cut_fill]; iexact H2
    iexists _; iexact H3
  · have hF : ¬condFirst (grid0.coords t) := fun h => hz ((hcondFirst t).mp h)
    rw [PhiS_castSucc m c t, PhiS_pos m c _ _ hz]
    by_cases h1 : t.val = 97
    · have hC : condLast (grid0.coords t) := (hcondLast t).mpr h1
      rw [show (dats m 0 c).leaves 3 t = owns (c : Thread nD τ) (ms3 t) fullShare ((dats m 0 c).after 3 t) from by
        unfold Dat.leaves; rw [live3_last t hC], after3]
      iintro ⟨⟨⟨HL, HT⟩, Hg⟩, Ho, ⟨%d0, H0⟩, ⟨%d1, H1⟩, ⟨%d2, H2⟩, ⟨%d3, H3⟩⟩
      iapply ((kernelRunC c (grid0.coords t) _ _ _ _ _ _ _ _ _ _ _ _ hF hC (iblk m c 0 t) (iblk m c 1 t) ((cfg0.win 2).fill (grid0.coords t) d2 (iblk m c 2 t)) _ _).2.2.2 Set.univ _)
      isplitl [H0]; · iexact H0
      isplitl [H1]; · iexact H1
      isplitl [H2]; · iexact H2
      isplitl [H3]; · iexists _; iexact H3
      isplitl [HL]; · iexact HL
      isplitl [HT]; · iexact HT
      iintro ⟨H0, H1, H2, ⟨%eO, H3⟩, ⟨%eL, HL⟩, ⟨%eT, HT⟩⟩
      isplitl [HL HT Hg]
      · isplitr [Hg]
        · isplitl [HL]
          · unfold owns; iexists _; isplitr
            swap; · iexact HL
            ipureintro
            refine (View.read_writes_of_cover _ _ _ _ _ (coverL_C c _ _ _ _ _ _ _ _ _ _ _ _ _ _ _ _ _ _ _ _)).trans ((pieceL_C c _ _ _ _ _ _ _ _ _ _ _ _ _ _ _ _ _ _ _ _).trans ?_)
            rw [acc_next m c t hz]; exact stepL_tile m c t _ _
          · unfold owns; iexists _; isplitr
            swap; · iexact HT
            ipureintro
            refine (View.read_writes_of_cover _ _ _ _ _ (coverT_C c _ _ _ _ _ _ _ _ _ _ _ _ _ _ _ _ _ _ _ _)).trans ((pieceT_C c _ _ _ _ _ _ _ _ _ _ _ _ _ _ _ _ _ _ _ _).trans ?_)
            rw [acc_next m c t hz]; exact stepT_tile m c t _ _
        · iexact Hg
      isplitl [Ho]; · iexact Ho
      isplitl [H0]; · iexact H0
      isplitl [H1]; · iexact H1
      isplitl [H2]
      · iexists d2; rw [after2, Window.cut_fill]; iexact H2
      unfold owns; iexists _; isplitr
      swap; · iexact H3
      ipureintro
      refine (View.read_writes_of_cover _ _ _ _ _ (coverO_C c _ _ _ _ _ _ _ _ _ _ _ _ _ _ _ _ _ _ _ _)).trans ((pieceO_C c _ _ _ _ _ _ _ _ _ _ _ _ _ _ _ _ _ _ _ _).trans ?_)
      rw [acc_next m c t hz, stepL_tile, stepT_tile]
    · have hL : ¬condLast (grid0.coords t) := fun h => h1 ((hcondLast t).mp h)
      rw [Dat.leaves_idle (dats m 0 c) 3 t (idle3_off t hL) (noFlush3_off t hL)]
      iintro ⟨⟨⟨HL, HT⟩, Hg⟩, Ho, ⟨%d0, H0⟩, ⟨%d1, H1⟩, ⟨%d2, H2⟩, ⟨%d3, H3⟩⟩
      iapply ((kernelRunB c (grid0.coords t) _ _ _ _ _ _ _ _ _ _ _ _ hF hL (iblk m c 0 t) (iblk m c 1 t) ((cfg0.win 2).fill (grid0.coords t) d2 (iblk m c 2 t)) _ _).2.2.2 _ Set.univ _)
      isplitl [H0]; · iexact H0
      isplitl [H1]; · iexact H1
      isplitl [H2]; · iexact H2
      isplitl [H3]; · iexact H3
      isplitl [HL]; · iexact HL
      isplitl [HT]; · iexact HT
      iintro ⟨H0, H1, H2, H3, ⟨%eL, HL⟩, ⟨%eT, HT⟩⟩
      isplitl [HL HT Hg]
      · isplitr [Hg]
        · isplitl [HL]
          · unfold owns; iexists _; isplitr
            swap; · iexact HL
            ipureintro
            refine (View.read_writes_of_cover _ _ _ _ _ (coverL_B c _ _ _ _ _ _ _ _ _ _ _ _ _ _ _ _ _ _ _ _)).trans ((pieceL_B c _ _ _ _ _ _ _ _ _ _ _ _ _ _ _ _ _ _ _ _).trans ?_)
            rw [acc_next m c t hz]; exact stepL_tile m c t _ _
          · unfold owns; iexists _; isplitr
            swap; · iexact HT
            ipureintro
            refine (View.read_writes_of_cover _ _ _ _ _ (coverT_B c _ _ _ _ _ _ _ _ _ _ _ _ _ _ _ _ _ _ _ _)).trans ((pieceT_B c _ _ _ _ _ _ _ _ _ _ _ _ _ _ _ _ _ _ _ _).trans ?_)
            rw [acc_next m c t hz]; exact stepT_tile m c t _ _
        · iexact Hg
      isplitl [Ho]; · iexact Ho
      isplitl [H0]; · iexact H0
      isplitl [H1]; · iexact H1
      isplitl [H2]
      · iexists d2; rw [after2, Window.cut_fill]; iexact H2
      iexists _; iexact H3

/-- The library's body obligation, at every tile. -/
theorem body_obligation (c : Dev nD) : BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 98 := N_0; omega), PhiA_eq]
  iintro ⟨⟨HL, HT⟩, Hg⟩
  isplitr [Hg]
  · isplitl [HL]
    · iexists _; iexact HL
    · iexists _; iexact HT
  · iexact Hg

/-! ## The run -/

set_option backward.isDefEq.respectTransparency.types false in
/-- Every weakly fair execution of the program terminates without a fault, every array of the region ends at what the
    proof data says, and every other unscoped buffer as the host lines after the region leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## What the output array ends holding -/

/-- The losses: what the last tile writes out from the two finished sums, as contents of the region's output array
    (its one block is the array). -/
abbrev result (c : Dev nD) : Buf (Elt Ideal) ((c : Thread nD τ).loc main_v9) :=
  lossOut (F := Ideal) (acc m c 97).1 (acc m c 97).2

/-- The last tile. -/
abbrev tLast : Fin cfg0.N := ⟨97, by decide⟩

/-- The one write-back, at the last tile, writes the losses. -/
theorem flushed_eq (c : Dev nD) (t : Fin cfg0.N) (hf : (cfg0.win 3).flush t = true) :
    (dats m 0 c).flushed 3 t = ((cfg0.win 3).blk t).view.read (Elt Ideal) (result m c) := by
  have hN : cfg0.N = 98 := N_0
  have h97 : t.val = 97 := by have := (flush0_3 t).mp hf; have := t.isLt; omega
  obtain rfl : t = tLast := Fin.ext h97
  show (cfg0.win 3).cut (grid0.coords tLast) ((dats m 0 c).after 3 tLast) = _
  rw [after3]
  have hz' : (fun a => win0_3.index tLast a * main_v9.ty.shape.size a) = fun _ => 0 := funext fun a => by fin_cases a <;> decide +kernel
  exact (Memref.read_access_unit_zero (Elt Ideal) main_v9 hz' (fun a => by rw [congrFun hz' a]; simp) (result m c)).symm

/-- So the output array ends holding the losses. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v9).slice (win0_3.rect tLast)).set
      rw [View.set_slice_whole, Rect.mem_set_unit]
      intro a
      have h0 : (i 0 : Nat) < 512 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 512 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-! ## The result -/

theorem pt_val (n : ℕ) (h : n < 98) : ((pt n) 0).val = n := by
  have hN : cfg0.N = 98 := N_0
  have h' : n < cfg0.N := by omega
  unfold pt; rw [dif_pos h']; exact coords_val ⟨n, h'⟩

/-- Tile `n`'s buffer holds, on a row that is a class, that class's row of the weights. -/
theorem tileBuf_row (c : Dev nD) (n : ℕ) (j : Fin 1024) (d : Fin 512) (h : n * 1024 + j.val < 100000) :
    tileBuf m c n (ix2 j d) = (V m c main_arg2 : S100000x512.Idx → EReal) (ix2 ⟨n * 1024 + j.val, h⟩ d) := by
  have hN : cfg0.N = 98 := N_0
  have hn : n < cfg0.N := by omega
  rw [tileBuf_eq m c ⟨n, hn⟩]
  exact fill_row m c ⟨n, hn⟩ _ j d h

/-- With every label a class, the program's result is the specification's mean loss in the kernel's form. -/
theorem value (c : Dev nD)
    (hlab : ∀ b : Fin 512, ((m ((c.tc : Thread nD τ).loc main_arg1) : S512.Idx → BitVec 32) (ix1 b)).toNat < 100000) :
    (Pipeline.afterTail₀ cfgs (dats m) 0 (V0 m) [hostOps1] c main_v12 : S_.Idx → EReal)
      = fun _ => ArcSpec.lossOfK (m ((c.tc : Thread nD τ).loc main_arg0)) (m ((c.tc : Thread nD τ).loc main_arg1))
          (m ((c.tc : Thread nD τ).loc main_arg2)) := by
  rw [tail_value m (dats m) c (result m c) (final_o m c)]
  funext _
  unfold ArcSpec.lossOfK ArcSpec.outK
  refine congrArg (fun s : EReal => Ideal.div s ArcSpec.NB) (Finset.sum_congr rfl fun b _ => ?_)
  have hl : ∀ b : Fin 512, (labs m c (ix2 b (0 : Fin 1))).toNat < 100000 := fun b => by
    rw [show labs m c (ix2 b (0 : Fin 1)) = _ from labs_apply m c b]; exact hlab b
  rw [show result m c (ix2 b (0 : Fin 1)) = _ from
    loss_value pt pt_val (labs m c) (embs m c) (V m c main_arg2) (tileBuf m c) (tileBuf_row m c) hl b]
  have e1 : (fun b => labs m c (ix2 b (0 : Fin 1))) = ArcSpec.words1 (m ((c.tc : Thread nD τ).loc main_arg1) : S512.Idx → BitVec 32) :=
    funext fun b => labs_apply m c b
  have e2 : (fun (b : Fin 512) (k : Fin 100000) => ∑ d : Fin 512, embs m c (ix2 b d) * ArcSpec.unitRow (ArcSpec.rows2 (V m c main_arg2 : S100000x512.Idx → EReal)) k d)
      = ArcSpec.cosv (ArcSpec.rows2 (m ((c.tc : Thread nD τ).loc main_arg0) : S512x512.Idx → EReal)) (ArcSpec.rows2 (m ((c.tc : Thread nD τ).loc main_arg2) : S100000x512.Idx → EReal)) := by
    funext b k
    unfold ArcSpec.cosv
    refine Finset.sum_congr rfl fun d _ => ?_
    rw [show embs m c (ix2 b d) = _ from embs_apply m c b d, V_main_arg2 m c]
  rw [e1, e2]

/-- At the extended reals, with every label a class: the program runs, its result is the specification's mean loss in
    the kernel's form, and its three argument arrays end as they were. -/
theorem run_value
    (hlab : ∀ (c : Dev nD) (b : Fin 512), ((m ((c.tc : Thread nD τ).loc main_arg1) : S512.Idx → BitVec 32) (ix1 b)).toNat < 100000) :
    θ_run defs (onTc (τ := τ) (main (F := Ideal))) ⟨m, fun _ => 0, ρ⟩ (fun r => ∀ c : Dev nD,
      r.2.mem ((c.tc : Thread nD τ).loc main_v12) = (fun _ => ArcSpec.lossOfK (m ((c.tc : Thread nD τ).loc main_arg0))
          (m ((c.tc : Thread nD τ).loc main_arg1)) (m ((c.tc : Thread nD τ).loc main_arg2)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (value m c (hlab c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩) (run_main m ρ)

end Cert.KernelIdeal.Data

end
-- ==== Proof.RefValue.lean ====
/-
  The reference's result as the specification's function of the argument arrays.

  The printed reference is read one stage at a time at an index: the scaled rows, their contraction (the cosine),
  the margin function, the one-hot entry, the logits, the row maximum the log-softmax subtracts, the log-softmax,
  the entry taken at the label, and the mean. The row maximum of real logits over the nonempty class axis is a real.
-/
import proofs.«411548_j89867895701783_1_alg».proof.Proof.SpecArrays
import proofs.«411548_j89867895701783_1_alg».proof.Proof.RefRun
import proofs.«411548_j89867895701783_1_alg».proof.Proof.RefRead
import proofs.«411548_j89867895701783_1_alg».proof.Proof.LossAlgebra
import Idealize.ShloMosaic.Lib.ValueIdx
import Idealize.ShloMosaic.Lib.ValueIdxRank1
import Idealize.ShloMosaic.PureOps.Ideal.Laws
import Idealize.ShloMosaic.Lib.Affine

noncomputable section

namespace Cert.RefValue

open Idealize.ShloMosaic Idealize.SL.Sem Cert.ReferenceIdeal Cert.ReferenceIdeal.Gen Cert.ReferenceIdeal.Read Idealize.ShloMosaic.ValueIdx Cert.ArcSpec

/-! ### The scaled rows and the cosines -/

/-- The embeddings' scaled row, read at (b, d). -/
theorem unit0 (x0 : S512x512.Idx → EReal) (b d : Fin 512) :
    val_main_v7 (F := Ideal) x0 (ix2 b d) = unitRow (rows2 x0) b d := by
  have hi : ∀ k : Fin 512, idx_main_v1 (idx_main_v2 (idx_main_v6 (ix2 b d))) k = ix2 b k := fun k =>
    funext fun a => Fin.ext (by match a with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, hi]
  unfold unitRow rows2
  rw [Ideal.ofBits_def, Ideal.ofBits_zero_f32, zero_add]
  rfl

/-- The class weights' scaled row, read at (c, d). -/
theorem unit2 (x2 : S100000x512.Idx → EReal) (c : Fin 100000) (d : Fin 512) :
    val_main_v15 (F := Ideal) x2 (ix2 c d) = unitRow (rows2 x2) c d := by
  have hi : ∀ k : Fin 512, idx_main_v9 (idx_main_v10 (idx_main_v14 (ix2 c d))) k = ix2 c k := fun k =>
    funext fun a => Fin.ext (by match a with | ⟨0, _⟩ => rfl | ⟨1, _⟩ => rfl)
  rw [val_main_v15_apply, val_main_v14_apply, val_main_v13_apply, val_main_v11_apply, val_main_v10_apply,
    val_main_v9_apply, val_main_v12_apply, val_main_cst_2_apply, val_main_cst_1_apply]
  simp only [val_main_v8_apply, hi]
  unfold unitRow rows2
  rw [Ideal.ofBits_def, Ideal.ofBits_zero_f32, zero_add]
  rfl

/-- The contraction of the scaled rows is the cosine. -/
theorem cos_read (x0 : S512x512.Idx → EReal) (x2 : S100000x512.Idx → EReal) (b : Fin 512) (c : Fin 100000) :
    val_main_v16 (F := Ideal) x0 x2 (ix2 b c) = cosv (rows2 x0) (rows2 x2) b c := by
  rw [val_main_v16_apply]
  unfold cosv
  refine Finset.sum_congr rfl fun k _ => ?_
  have hl : lidx_main_v16 (ix2 b c) k = ix2 b k :=
    funext fun a => Fin.ext (by match a with | ⟨0, _⟩ => rfl | ⟨1, _⟩ => rfl)
  have hr : ridx_main_v16 (ix2 b c) k = ix2 c k :=
    funext fun a => Fin.ext (by match a with | ⟨0, _⟩ => rfl | ⟨1, _⟩ => rfl)
  rw [hl, hr, unit0, unit2]

/-! ### The margin, the one-hot and the logits -/

/-- The selected arm is the margin function of the cosine. -/
theorem margin_read (x0 : S512x512.Idx → EReal) (x2 : S100000x512.Idx → EReal) (b : Fin 512) (c : Fin 100000) :
    val_main_v31 (F := Ideal) x0 x2 (ix2 b c) = margin (cosv (rows2 x0) (rows2 x2) b c) := by
  rw [val_main_v31_apply, val_main_v28_apply, val_main_v26_apply, val_main_v30_apply, val_main_v23_apply,
    val_main_v25_apply, val_main_v21_apply, val_main_v20_apply, val_main_v19_apply, val_main_v17_apply,
    val_main_v18_apply, val_main_v22_apply, val_main_v24_apply, val_main_v27_apply, val_main_v29_apply,
    val_main_call0_v1_apply, val_main_call0_v0_apply, val_main_cst_3_apply, val_main_cst_4_apply,
    val_main_cst_5_apply, val_main_cst_6_apply, val_main_cst_7_apply, val_main_cst_8_apply, cos_read]
  generalize cosv (rows2 x0) (rows2 x2) b c = x
  unfold margin
  rfl

/-- The converted comparison of the label with the class number is the one-hot entry. -/
theorem hot_read (x1 : S512.Idx → BitVec 32) (b : Fin 512) (c : Fin 100000) :
    val_main_v32 (F := Ideal) x1 (ix2 b c) = hot (words1 x1) b c := by
  have h0 : idx_main_call2_v0 (idx_main_call2_v2 (ix2 b c)) = ix1 b :=
    funext fun a => Fin.ext (by match a with | ⟨0, _⟩ => rfl)
  have h1 : ((idx_main_call2_v3 (ix2 b c)) 1).val = c.val := rfl
  rw [val_main_v32_apply, val_main_call2_v4_apply, val_main_call2_v2_apply, val_main_call2_v0_apply,
    val_main_call2_v3_apply, val_main_call2_v1_apply, h0, h1]
  unfold hot
  by_cases h : isLabel (words1 x1) b c
  · have h' : x1 (ix1 b) = BitVec.ofNat 32 c.val := h
    rw [if_pos h, IntOp.cmpi_eq.mpr h', ONE_eq]
    show (((1#1 : BitVec 1).toNat : ℝ) : EReal) = 1
    rw [show (1#1 : BitVec 1).toNat = 1 from rfl, Nat.cast_one, EReal.coe_one]
  · have h' : ¬ x1 (ix1 b) = BitVec.ofNat 32 c.val := h
    rw [if_neg h, eq_zero_of_ne_one (fun e => h' (IntOp.cmpi_eq.mp e)), ZERO_eq]
    show (((0#1 : BitVec 1).toNat : ℝ) : EReal) = 0
    rw [show (0#1 : BitVec 1).toNat = 0 from rfl, Nat.cast_zero, EReal.coe_zero]

/-- The scaled blend is the reference's logit. -/
theorem logit_read (x0 : S512x512.Idx → EReal) (x1 : S512.Idx → BitVec 32) (x2 : S100000x512.Idx → EReal)
    (b : Fin 512) (c : Fin 100000) :
    val_main_v39 (F := Ideal) x0 x1 x2 (ix2 b c)
      = logitR (words1 x1) (cosv (rows2 x0) (rows2 x2)) b c := by
  rw [val_main_v39_apply, val_main_v38_apply, val_main_cst_10_apply, val_main_v37_apply, val_main_v33_apply,
    val_main_v36_apply, val_main_v35_apply, val_main_v34_apply, val_main_cst_9_apply, hot_read, margin_read,
    cos_read]
  unfold logitR
  rfl

/-! ### The row maximum -/

/-- The word of minus infinity. -/
theorem ninf_eq : Ideal.ofBits .f32 0xFF800000#32 = (⊥ : EReal) := by simp [Ideal.ofBits, Ideal.ieee]

/-- The maximum, from minus infinity, of finitely many reals over a nonempty index set is a real. -/
theorem fold_max_real {ι : Type} (s : Finset ι) (hs : s.Nonempty) (f : ι → EReal)
    (hf : ∀ i, ∃ r : ℝ, f i = (r : EReal)) :
    ∃ r : ℝ, s.fold (FloatOps.maximumf (F := Ideal) (φ := .f32)) (⊥ : EReal) f = (r : EReal) := by
  classical
  induction s using Finset.induction_on with
  | empty => exact absurd hs Finset.not_nonempty_empty
  | insert a t ha ih =>
    rw [Finset.fold_insert ha]
    obtain ⟨r, hr⟩ := hf a
    rcases t.eq_empty_or_nonempty with rfl | ht
    · rw [Finset.fold_empty, hr]
      exact ⟨r, max_eq_left bot_le⟩
    · obtain ⟨q, hq⟩ := ih ht
      rw [hr, hq]
      exact ⟨max r q, max_coe r q⟩

/-- With real entries every logit is real. -/
theorem logit_real_all (x0 : S512x512.Idx → EReal) (x1 : S512.Idx → BitVec 32) (x2 : S100000x512.Idx → EReal)
    (h0 : ∀ i, ∃ r : ℝ, x0 i = (r : EReal)) (h2 : ∀ i, ∃ r : ℝ, x2 i = (r : EReal)) (i : S512x100000.Idx) :
    ∃ r : ℝ, val_main_v39 (F := Ideal) x0 x1 x2 i = (r : EReal) := by
  obtain ⟨b, c, rfl⟩ : ∃ (b : Fin 512) (c : Fin 100000), i = ix2 b c := ⟨i 0, i 1, eq_ix2 i⟩
  rw [logit_read, logitR_eq_logitK]
  exact logitK_real _ _ (cosv_real _ _ (fun b d => h0 _) (fun c d => h2 _)) b c

/-- The shift the log-softmax subtracts from row b: the row's maximum. -/
def rowMax (x0 : S512x512.Idx → EReal) (x1 : S512.Idx → BitVec 32) (x2 : S100000x512.Idx → EReal) (b : Fin 512) : EReal :=
  val_main_call3_v2 (F := Ideal) x0 x1 x2 (ix1 b)

/-- The row maximum of real logits over the 100000 classes is a real. -/
theorem rowMax_real (x0 : S512x512.Idx → EReal) (x1 : S512.Idx → BitVec 32) (x2 : S100000x512.Idx → EReal)
    (hy : ∀ i, ∃ r : ℝ, val_main_v39 (F := Ideal) x0 x1 x2 i = (r : EReal)) (b : Fin 512) :
    ∃ r : ℝ, rowMax x0 x1 x2 b = (r : EReal) := by
  unfold rowMax
  rw [val_main_call3_v2_apply, val_main_call3_v1_apply, val_main_call3_cst_0_apply, Ideal.ofBits_def, ninf_eq]
  unfold val_main_call3_v0
  generalize val_main_v39 (F := Ideal) x0 x1 x2 = y at hy ⊢
  have hR : S512x100000.Reduces [1] S512 := by decide
  have hfold := Host.reduce_eq_fold_single (FloatOps.maximumf (F := Ideal) (φ := .f32)) y
    (val_main_call3_cst (F := Ideal)) reducesTo_S512x100000_S512_d1 hR h_S_ (ix1 b)
  have hinit : val_main_call3_cst (F := Ideal) (Shape.Idx.first h_S_) = (⊥ : EReal) := by
    rw [val_main_call3_cst_apply, Ideal.ofBits_def, ninf_eq]
  rw [hinit] at hfold
  obtain ⟨r, hr⟩ := fold_max_real (Finset.univ : Finset (Fin (S512x100000.size 1)))
    ⟨⟨0, by decide⟩, Finset.mem_univ _⟩ (y ∘ hR.lift (ix1 b)) (fun k => hy _)
  exact ⟨r, (congrArg (fun z => FloatOps.maximumf (F := Ideal) (φ := .f32) (⊥ : EReal) z) (hfold.trans hr)).trans
    (max_eq_right bot_le)⟩

/-! ### The log-softmax -/

/-- The shifted logit. -/
theorem shift_read (x0 : S512x512.Idx → EReal) (x1 : S512.Idx → BitVec 32) (x2 : S100000x512.Idx → EReal)
    (b : Fin 512) (c : Fin 100000) :
    val_main_call3_v5 (F := Ideal) x0 x1 x2 (ix2 b c)
      = logitR (words1 x1) (cosv (rows2 x0) (rows2 x2)) b c - rowMax x0 x1 x2 b := by
  have hi : idx_main_call3_v3 (idx_main_call3_v4 (ix2 b c)) = ix1 b :=
    funext fun a => Fin.ext (by match a with | ⟨0, _⟩ => rfl)
  rw [val_main_call3_v5_apply, val_main_call3_v4_apply, val_main_call3_v3_apply, hi, logit_read]
  rfl

/-- The log-softmax entry: the shifted logit less the log of the sum of the exponentials of the row's shifted logits. -/
theorem logp_read (x0 : S512x512.Idx → EReal) (x1 : S512.Idx → BitVec 32) (x2 : S100000x512.Idx → EReal)
    (b : Fin 512) (c : Fin 100000) :
    val_main_v40 (F := Ideal) x0 x1 x2 (ix2 b c)
      = (logitR (words1 x1) (cosv (rows2 x0) (rows2 x2)) b c - rowMax x0 x1 x2 b)
        - Ideal.log (∑ k : Fin 100000,
            Ideal.exp (logitR (words1 x1) (cosv (rows2 x0) (rows2 x2)) b k - rowMax x0 x1 x2 b)) := by
  have hi : ∀ k : Fin 100000, idx_main_call3_v7 (idx_main_call3_v8 (idx_main_call3_v10 (ix2 b c))) k = ix2 b k :=
    fun k => funext fun a => Fin.ext (by match a with | ⟨0, _⟩ => rfl | ⟨1, _⟩ => rfl)
  rw [val_main_v40_apply, val_main_call3_v10_apply, val_main_call3_v9_apply, val_main_call3_v8_apply,
    val_main_call3_v7_apply, val_main_call3_cst_1_apply, shift_read]
  simp only [val_main_call3_v6_apply, hi, shift_read, Ideal.hostUnary_exp_def]
  rw [Ideal.ofBits_def, Ideal.ofBits_zero_f32, zero_add, Ideal.hostUnary_log_def, Ideal.subf_def]

/-! ### The label's entry of the log-softmax -/

/-- A class number read as a signed 32-bit word is itself. -/
theorem toInt_ofNat_small (n : ℕ) (hn : n < 100000) : (BitVec.ofNat 32 n).toInt = (n : Int) := by
  have hm : n % 2 ^ 32 = n := Nat.mod_eq_of_lt (by omega)
  rw [BitVec.toInt_eq_toNat_cond, BitVec.toNat_ofNat, hm]
  split <;> omega

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- A position on an axis of three places is the first, the second or the third. -/
theorem fin3_cases (a : Fin 3) : a = 0 ∨ a = 1 ∨ a = 2 := by
  rcases a with ⟨v, hv⟩
  rcases (by omega : v = 0 ∨ v = 1 ∨ v = 2) with rfl | rfl | rfl
  · exact Or.inl rfl
  · exact Or.inr (Or.inl rfl)
  · exact Or.inr (Or.inr rfl)

/-- The batched row gather: result (b, 0) reads the operand's row b at the column its start index names, when that
    column, read signed, is in range. -/
theorem gather_read {α : Type} (x : S512x100000.Idx → α) (idx : IVec S512x1x1 32) (b : Fin 512) (k : ℕ) (hk : k < 100000)
    (hidx : (idx (ix3 b (0 : Fin 1) (0 : Fin 1))).toInt = (k : Int)) :
    Host.gather gather_S512x100000_S512x1x1_S512x1_n_1_0_0_1_2_11 x idx (ix2 b (0 : Fin 1))
      = x (ix2 b (⟨k, hk⟩ : Fin 100000)) := by
  unfold Host.gather
  congr 1
  funext a
  apply Fin.ext
  show gather_S512x100000_S512x1x1_S512x1_n_1_0_0_1_2_11.start (ix2 b (0 : Fin 1)) idx a
      + gather_S512x100000_S512x1x1_S512x1_n_1_0_0_1_2_11.batchCoord (ix2 b (0 : Fin 1)) a
      + gather_S512x100000_S512x1x1_S512x1_n_1_0_0_1_2_11.offCoord (ix2 b (0 : Fin 1)) a = _
  rcases fin2_cases a with rfl | rfl
  · rw [GatherDims.offCoord_eq_zero _ _ _ (by rw [GatherDims.mem_sKept]; exact fun h => h.2 (by decide)),
      GatherDims.start_batching _ _ _ _ (by decide), Nat.zero_add, Nat.add_zero]
    rfl
  · rw [GatherDims.offCoord_eq_zero _ _ _ (by rw [GatherDims.mem_sKept]; exact fun h => h.1 (by decide)),
      GatherDims.batchCoord_eq_zero _ _ _ (by decide), Nat.add_zero]
    unfold GatherDims.start
    rw [dif_pos (by decide)]
    have hsi : ∀ c, gather_S512x100000_S512x1x1_S512x1_n_1_0_0_1_2_11.siIdx (ix2 b (0 : Fin 1)) c
        = ix3 b (0 : Fin 1) (0 : Fin 1) := by
      intro c
      funext a'
      apply Fin.ext
      rcases fin3_cases a' with rfl | rfl | rfl
      · rfl
      · have := (gather_S512x100000_S512x1x1_S512x1_n_1_0_0_1_2_11.siIdx (ix2 b (0 : Fin 1)) c 1).isLt
        have h1 : S512x1x1.size 1 = 1 := rfl
        show (gather_S512x100000_S512x1x1_S512x1_n_1_0_0_1_2_11.siIdx (ix2 b (0 : Fin 1)) c 1).val = 0
        omega
      · have := (gather_S512x100000_S512x1x1_S512x1_n_1_0_0_1_2_11.siIdx (ix2 b (0 : Fin 1)) c 2).isLt
        have h1 : S512x1x1.size 2 = 1 := rfl
        show (gather_S512x100000_S512x1x1_S512x1_n_1_0_0_1_2_11.siIdx (ix2 b (0 : Fin 1)) c 2).val = 0
        omega
    rw [hsi, hidx]
    show min (k : Int).toNat (100000 - 1) = k
    omega

/-- The start index of sample b: a label that is a class number is not negative, so the wrap-around arm is not taken
    and the word is the label. -/
theorem idxword_read (x1 : S512.Idx → BitVec 32) (b : Fin 512) (n : ℕ) (hn : n < 100000)
    (hx : x1 (ix1 b) = BitVec.ofNat 32 n) :
    val_main_call4_v5 (F := Ideal) x1 (ix3 b (0 : Fin 1) (0 : Fin 1)) = BitVec.ofNat 32 n := by
  have h5 : idx_main_call4_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  have h41 : idx_main_v41 (ix2 b (0 : Fin 1)) = ix1 b :=
    funext fun a => Fin.ext (by match a with | ⟨0, _⟩ => rfl)
  have hlt : ¬ IntOp.cmpi .slt (BitVec.ofNat 32 n) 0#32 = 1#1 := by
    rw [IntOp.cmpi_slt, toInt_ofNat_small n hn, show (0#32 : BitVec 32).toInt = 0 from by decide]
    omega
  rw [val_main_call4_v5_apply, h5, val_main_call4_v4_apply, val_main_call4_v1_apply, val_main_v41_apply, h41, hx,
    val_main_call4_v0_apply, val_main_call4_c_apply, eq_zero_of_ne_one hlt, select_zero]

/-- Every start index passes the range test 0 ≤ index ≤ 99999. -/
theorem inrange_all (x1 : S512.Idx → BitVec 32) (lbl : Fin 512 → Fin 100000)
    (hl : ∀ b, x1 (ix1 b) = BitVec.ofNat 32 (lbl b).val) (i : S512x1x1.Idx) :
    val_main_call4_v11 (F := Ideal) x1 i = 1#1 := by
  obtain ⟨b, u, v, rfl⟩ : ∃ (b : Fin 512) (u v : Fin 1), i = ix3 b u v := ⟨i 0, i 1, i 2, eq_ix3 i⟩
  obtain rfl : u = 0 := Subsingleton.elim _ _
  obtain rfl : v = 0 := Subsingleton.elim _ _
  have hn := (lbl b).isLt
  rw [val_main_call4_v11_apply, val_main_call4_v7_apply, val_main_call4_v10_apply,
    idxword_read x1 b _ (lbl b).isLt (hl b), val_main_call4_v6_apply, val_main_call4_c_2_apply,
    val_main_call4_v9_apply, val_main_call4_v8_apply, val_main_call4_c_1_apply, IntOp.andi_eq_one]
  refine ⟨IntOp.cmpi_sge.mpr ?_, IntOp.cmpi_sle.mpr ?_⟩
  · rw [toInt_ofNat_small _ hn, show (0#32 : BitVec 32).toInt = 0 from by decide]
    omega
  · rw [toInt_ofNat_small _ hn, show (99999#32 : BitVec 32).toInt = 99999 from by decide]
    omega

/-- A left fold by and, from 1, over words that are all 1 is 1. -/
theorem foldl_andi_one {ι : Type} (g : ι → BitVec 1) (hg : ∀ n, g n = 1#1) (l : List ι) :
    l.foldl (fun r n => IntOp.andi r (g n)) 1#1 = 1#1 := by
  induction l with
  | nil => rfl
  | cons a t ih =>
    rw [List.foldl_cons, hg a, show IntOp.andi (1#1 : BitVec 1) 1#1 = 1#1 from by decide]
    exact ih

/-- A reduction by and, from 1, of an array whose words are all 1 is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  unfold Host.reduce
  rw [hi]
  exact foldl_andi_one (fun n => x (s.rowMajor.symm n)) (fun n => hx _) _

/-- With every label a class number, the taken entry of sample b is the log-softmax at (b, label b). -/
theorem take_read (x0 : S512x512.Idx → EReal) (x1 : S512.Idx → BitVec 32) (x2 : S100000x512.Idx → EReal)
    (lbl : Fin 512 → Fin 100000) (hl : ∀ b, x1 (ix1 b) = BitVec.ofNat 32 (lbl b).val) (b : Fin 512) :
    val_main_v42 (F := Ideal) x0 x1 x2 (ix2 b (0 : Fin 1)) = val_main_v40 (F := Ideal) x0 x1 x2 (ix2 b (lbl b)) := by
  have h12 : val_main_call4_v12 (F := Ideal) x1 (ix2 b (0 : Fin 1)) = 1#1 := by
    unfold val_main_call4_v12
    exact reduce_andi_one _ _ _ _ (inrange_all x1 lbl hl) (val_main_call4_c_3_apply _) _
  have hidx : (val_main_call4_v5 (F := Ideal) x1 (ix3 b (0 : Fin 1) (0 : Fin 1))).toInt = ((lbl b).val : Int) := by
    rw [idxword_read x1 b _ (lbl b).isLt (hl b), toInt_ofNat_small _ (lbl b).isLt]
  rw [val_main_v42_apply, h12, select_one]
  unfold val_main_call4_v13
  generalize val_main_v40 (F := Ideal) x0 x1 x2 = y
  generalize val_main_call4_v5 (F := Ideal) x1 = w at hidx ⊢
  exact gather_read y w b (lbl b).val (lbl b).isLt hidx

/-! ### The mean -/

/-- The negated taken entry is the reference's loss of sample b at its label. -/
theorem loss_read (x0 : S512x512.Idx → EReal) (x1 : S512.Idx → BitVec 32) (x2 : S100000x512.Idx → EReal)
    (lbl : Fin 512 → Fin 100000) (hl : ∀ b, x1 (ix1 b) = BitVec.ofNat 32 (lbl b).val) (b : Fin 512) :
    val_main_v44 (F := Ideal) x0 x1 x2 (ix1 b)
      = lossR (words1 x1) (cosv (rows2 x0) (rows2 x2)) (rowMax x0 x1 x2) b (lbl b) := by
  have h43 : idx_main_v43 (ix1 b) = ix2 b (0 : Fin 1) :=
    funext fun a => Fin.ext (by
      match a with
      | ⟨0, _⟩ => show b.val / 1 = b.val; omega
      | ⟨1, _⟩ => rfl)
  rw [val_main_v44_apply, val_main_v43_apply, h43, take_read x0 x1 x2 lbl hl b, logp_read]
  unfold lossR
  rw [Ideal.hostNegf_def, Ideal.negf_def]

/-- The result's one entry is the mean loss in the reference's form, the shifts the row maxima. -/
theorem out_read (x0 : S512x512.Idx → EReal) (x1 : S512.Idx → BitVec 32) (x2 : S100000x512.Idx → EReal)
    (lbl : Fin 512 → Fin 100000) (hl : ∀ b, x1 (ix1 b) = BitVec.ofNat 32 (lbl b).val) (i : S_.Idx) :
    val_main_v46 (F := Ideal) x0 x1 x2 i = lossOfR x0 x1 x2 (rowMax x0 x1 x2) lbl := by
  have hs : ∑ j : S512.Idx, val_main_v44 (F := Ideal) x0 x1 x2 j
      = ∑ b : Fin 512, lossR (words1 x1) (cosv (rows2 x0) (rows2 x2)) (rowMax x0 x1 x2) b (lbl b) :=
    (Equiv.sum_comp (idxEquiv1 (n := 512)).symm _).symm.trans
      (Finset.sum_congr rfl fun b _ => loss_read x0 x1 x2 lbl hl b)
  rw [val_main_v46_apply, val_main_v45_apply, val_main_cst_11_apply, val_main_cst_12_apply, hs]
  simp only [Ideal.ofBits_def]
  rw [Ideal.ofBits_zero_f32, zero_add, Ideal.hostDivf_def]
  rfl

/-- With real entries and every label a class, the reference's result is the mean loss in the reference's form,
    its shifts some real numbers. -/
theorem result (m : (ℓ : Loc nD τ sig) → Buf (Elt Ideal) ℓ) (c : Dev nD) (lbl : Fin 512 → Fin 100000)
    (h0 : ∀ i, ∃ r : ℝ, (m ((c.tc : Thread nD τ).loc main_arg0) : S512x512.Idx → EReal) i = (r : EReal))
    (h2 : ∀ i, ∃ r : ℝ, (m ((c.tc : Thread nD τ).loc main_arg2) : S100000x512.Idx → EReal) i = (r : EReal))
    (hl : ∀ b : Fin 512, (m ((c.tc : Thread nD τ).loc main_arg1) : S512.Idx → BitVec 32) (ValueIdx.ix1 b) = BitVec.ofNat 32 (lbl b).val) :
    ∃ M : Fin 512 → EReal, (∀ b, ∃ r : ℝ, M b = (r : EReal)) ∧
      (Cert.ReferenceIdeal.Value.res_out0 (F := Ideal) m c : S_.Idx → EReal)
        = fun _ => ArcSpec.lossOfR (m ((c.tc : Thread nD τ).loc main_arg0)) (m ((c.tc : Thread nD τ).loc main_arg1))
            (m ((c.tc : Thread nD τ).loc main_arg2)) M lbl := by
  refine ⟨rowMax (m ((c.tc : Thread nD τ).loc main_arg0)) (m ((c.tc : Thread nD τ).loc main_arg1))
      (m ((c.tc : Thread nD τ).loc main_arg2)),
    rowMax_real _ _ _ (logit_real_all _ _ _ h0 h2), ?_⟩
  funext i
  show Cert.ReferenceIdeal.Value.res_main_v46 (F := Ideal) m c i = _
  rw [val_main_v46_eq]
  exact out_read _ _ _ lbl hl i

end Cert.RefValue

end
-- ==== Proof.PreFacts.lean ====
/-
  What the precondition says of the argument arrays: every entry of the two float arrays is a real number, and
  every label is a class index.

  The precondition is a conjunction of three "all entries pass" tests, each a reduction by `and` over a whole array
  from the constant 1. A conjunction of bits that is 1 has both bits 1; a reduction by `and` that is 1 met a 1 at every
  entry. So each entry passed its test. For a float entry x the test is max x (−x) < +∞ on the extended reals: neither
  infinity passes it, so x is a real number. For a label w the test is 0 ≤ w and w < 100000, both read as signed
  32-bit numbers: the first puts w below 2³¹ as a natural number, where the signed and the unsigned order agree, and
  the second then says w < 100000 as a natural number.
-/
import proofs.«411548_j89867895701783_1_alg».proof.Pre_finite_inputs
import proofs.«411548_j89867895701783_1_alg».proof.Proof.Gen.Pre_finite_inputs
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs

/-- The shape of rank 0 has exactly one index. -/
local instance subsingleton_scalar_idx : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (−x) lies below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The printed element test |x| < +∞ that came out 1 says x is a real number. -/
theorem real_of_test (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [inf_word] at h'
  simpa [Ideal.cmp, StableHlo.Predicate.ofBool_eq_one_iff] using h'

/-- A 32-bit word that is at least 0 and below 100000 as a signed number is below 100000 as a natural number. -/
theorem label_lt (w : BitVec 32) (h0 : IntOp.cmpi .sge w 0#32 = 1#1) (h1 : IntOp.cmpi .slt w 100000#32 = 1#1) :
    w.toNat < 100000 := by
  have hnn : 0 ≤ w.toInt := by
    simpa [IntOp.cmpi, BitVec.sle, StableHlo.Predicate.ofBool_eq_one_iff] using h0
  have hsmall : w.toNat < 2 ^ 31 := by
    rw [BitVec.toInt_eq_toNat_cond] at hnn
    split at hnn <;> omega
  simpa using (StableHlo.Predicate.slt_iff_toNat hsmall (by decide)).1 h1

/-- The printed precondition, all ones, read entry by entry. -/
theorem decode [Cert.Pre_finite_inputs.Facts] (x0 : FVec Ideal S512x512 .f32) (x1 : IVec S512 32) (x2 : FVec Ideal S100000x512 .f32)
    (h : Cert.Pre_finite_inputs.fn (F := Ideal) x0 x1 x2 = fun _ => 1#1) :
    (∀ i, ∃ r : ℝ, x0 i = (r : EReal)) ∧ (∀ i, ∃ r : ℝ, x2 i = (r : EReal)) ∧ (∀ i, (x1 i).toNat < 100000) := by
  -- the function's one result bit, with the chain of let-lines opened
  have e := congrFun h (fun a => a.elim0)
  dsimp only [Cert.Pre_finite_inputs.fn] at e
  -- the outer conjunctions: (first float array ∧ second float array) ∧ labels
  obtain ⟨e02, eL⟩ := IntOp.andi_eq_one.1 e
  obtain ⟨e0, e2⟩ := IntOp.andi_eq_one.1 e02
  -- each reduction by `and` met a 1 at every entry
  refine ⟨fun i => ?_, fun i => ?_, fun i => ?_⟩
  · exact real_of_test (x0 i) (Host.reduce_andi_all _ _ _ _ _ e0 i)
  · exact real_of_test (x2 i) (Host.reduce_andi_all _ _ _ _ _ e2 i)
  · obtain ⟨h0, h1⟩ := IntOp.andi_eq_one.1 (Host.reduce_andi_all _ _ _ _ _ eL i)
    exact label_lt (x1 i) h0 h1

end Cert.PreFacts

end
-- ==== Proof.lean ====
/-
  The certificate's claim: an ArcFace loss computed by a kernel that streams the class weights tile by tile, against
  its plain reference.

  Under the precondition (every float entry finite, every label a class) both programs run to their end and leave
  their arguments as they were; the kernel's fill for the class columns past the last class stands for −∞, as the
  certificate's table names it; and at the extended reals both results are the mean over the samples of
  log Σ_c exp(logit_c) − logit_label: the kernel accumulates Σ exp(logit − scale) over its 98 class tiles and adds the
  scale back under the logarithm, the reference shifts by the row maximum, and for real logits the shifts cancel.
-/
import proofs.«411548_j89867895701783_1_alg».proof.Defs
import proofs.«411548_j89867895701783_1_alg».proof.Proof.Gen.Kernel
import proofs.«411548_j89867895701783_1_alg».proof.Proof.Gen.KernelIdeal
import proofs.«411548_j89867895701783_1_alg».proof.Proof.Gen.ReferenceIdeal
import proofs.«411548_j89867895701783_1_alg».proof.Proof.Gen.Pre_finite_inputs
import proofs.«411548_j89867895701783_1_alg».proof.Proof.KBFrame
import proofs.«411548_j89867895701783_1_alg».proof.Proof.KIFrame
import proofs.«411548_j89867895701783_1_alg».proof.Proof.KIData
import proofs.«411548_j89867895701783_1_alg».proof.Proof.RefValue
import proofs.«411548_j89867895701783_1_alg».proof.Proof.LossAlgebra
import proofs.«411548_j89867895701783_1_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the fill of the class columns past the last class denotes −∞. -/
theorem preserves : Cert.preserves_Kernel_KernelIdeal :=
  IdealRules.named_const.statement Cert.KernelIdeal.κ "neg_fill" .f32 0xFF333332#32 ⊥ rfl

/-- At the extended reals the two programs' results are one number: the kernel's is the mean loss in its own form, the
    reference's the mean loss in its form, and with real cosines and every label a class the two forms agree. -/
theorem algebraic : Cert.algebraic_KernelIdeal_ReferenceIdeal := by
  intro m ρ m' ρ' hpre hagree
  have hdec := fun c => Cert.PreFacts.decode _ _ _ (hpre c)
  refine ⟨fun c => (fun _ => ArcSpec.lossOfK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.Data.run_value m ρ (fun c b => (hdec c).2.2 (ix1 b)), ?_⟩
  refine (θ_run Cert.ReferenceIdeal.defs _ _).mono (fun _ h c => ⟨(h c).1.trans ?_, (h c).2⟩)
    (Cert.ReferenceIdeal.Value.run (F := Ideal) m' ρ')
  obtain ⟨h0, h2, hl⟩ := hdec c
  let lbl : Fin 512 → Fin 100000 := fun b => ⟨_, hl (ix1 b)⟩
  obtain ⟨M, hM, hres⟩ := Cert.RefValue.result m' c lbl
    (by rw [(hagree c).1]; exact h0) (by rw [(hagree c).2.2]; exact h2)
    (fun b => by rw [(hagree c).2.1]; show _ = BitVec.ofNat 32 (BitVec.toNat _); rw [BitVec.ofNat_toNat, BitVec.setWidth_eq])
  refine hres.trans ?_
  funext _
  rw [(hagree c).1, (hagree c).2.1, (hagree c).2.2]
  unfold ArcSpec.lossOfR ArcSpec.lossOfK
  refine (ArcSpec.outK_eq_outR _ _ M lbl (fun b k => ArcSpec.cosv_real _ _ (fun b d => h0 _) (fun k d => h2 _) b k) hM (fun b => ?_)).symm
  unfold ArcSpec.words1
  show _ = BitVec.ofNat 32 (BitVec.toNat _)
  rw [BitVec.ofNat_toNat, BitVec.setWidth_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
